-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x3 : Shape := ⟨2, ![32768, 3]⟩
abbrev S2x524288 : Shape := ⟨2, ![2, 524288]⟩
abbrev S524288 : Shape := ⟨1, ![524288]⟩
abbrev S320x256 : Shape := ⟨2, ![320, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1x64 : Shape := ⟨2, ![1, 64]⟩
abbrev S64 : Shape := ⟨1, ![64]⟩
abbrev S64x64 : Shape := ⟨2, ![64, 64]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x3 : S_.BroadcastsInDim S32768x3 (![] : Fin 0 → Fin S32768x3.rank)
  reducesTo_S32768x3_S_d0_1 : S32768x3.ReducesTo [0, 1] S_
  bcast_S_S524288 : S_.BroadcastsInDim S524288 (![] : Fin 0 → Fin S524288.rank)
  reducesTo_S524288_S_d0 : S524288.ReducesTo [0] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x64 .f32) (main_arg14 : FVec F S64 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S320x256 .f32) (main_arg9 : FVec F S256 .f32) (main_arg10 : FVec F S256x1 .f32) (main_arg11 : FVec F S1x64 .f32) (main_arg12 : FVec F S64 .f32) (main_arg13 : FVec F S64x64 .f32) (main_arg14 : FVec F S64 .f32) (main_v33 : IVec S_ 1) : IVec S_ 1 :=
  let main_v34 : FVec F S320x256 .f32 := Host.absf main_arg8
  let main_cst_12 : FVec F S_ .f32 := constant S_ .f32 0x7F800000#32
  let main_v35 : FVec F S320x256 .f32 := broadcastInDim S320x256 ![] bcast_S_S320x256 main_cst_12
  let main_v36 : IVec S320x256 1 := cmpf .olt main_v34 main_v35
  let main_c_13 : IVec S_ 1 := constantI S_ 1 1#1
  let main_v37 : IVec S_ 1 := (fun x v => Host.reduce IntOp.andi x v reducesTo_S320x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1x64 .f32 := Host.absf main_arg11
  let main_cst_18 : FVec F S_ .f32 := constant S_ .f32 0x7F800000#32
  let main_v50 : FVec F S1x64 .f32 := broadcastInDim S1x64 ![] bcast_S_S1x64 main_cst_18
  fn_part3 (F := F) main_arg12 main_arg13 main_arg14 main_v48 main_v49 main_v50

def fn_part1 {F : FTy → Type} [FloatOps F] (main_arg5 : FVec F S256 .f32) (main_arg6 : FVec F S256x128 .f32) (main_arg7 : FVec F S128 .f32) (main_arg8 : FVec F S320x256 .f32) (main_arg9 : FVec F S256 .f32) (main_arg10 : FVec F S256x1 .f32) (main_arg11 : FVec F S1x64 .f32) (main_arg12 : FVec F S64 .f32) (main_arg13 : FVec F S64x64 .f32) (main_arg14 : FVec F S64 .f32) (main_v13 : IVec S_ 1) (main_v16 : IVec S320x256 1) : IVec S_ 1 :=
  let main_c_5 : IVec S_ 1 := constantI S_ 1 1#1
  let main_v17 : IVec S_ 1 := (fun x v => Host.reduce IntOp.andi x v reducesTo_S320x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S32768x128 .f32) (main_arg1 : FVec F S32768x3 .f32) (main_arg2 : IVec S2x524288 32) (main_arg3 : FVec F S524288 .f32) (main_arg4 : FVec F S320x256 .f32) (main_arg5 : FVec F S256 .f32) (main_arg6 : FVec F S256x128 .f32) (main_arg7 : FVec F S128 .f32) (main_arg8 : FVec F S320x256 .f32) (main_arg9 : FVec F S256 .f32) (main_arg10 : FVec F S256x1 .f32) (main_arg11 : FVec F S1x64 .f32) (main_arg12 : FVec F S64 .f32) (main_arg13 : FVec F S64x64 .f32) (main_arg14 : FVec F S64 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x3 .f32 := Host.absf main_arg1
  let main_cst_0 : FVec F S_ .f32 := constant S_ .f32 0x7F800000#32
  let main_v5 : FVec F S32768x3 .f32 := broadcastInDim S32768x3 ![] bcast_S_S32768x3 main_cst_0
  let main_v6 : IVec S32768x3 1 := cmpf .olt main_v4 main_v5
  let main_c_1 : IVec S_ 1 := constantI S_ 1 1#1
  let main_v7 : IVec S_ 1 := (fun x v => Host.reduce IntOp.andi x v reducesTo_S32768x3_S_d0_1 h_S_) main_v6 main_c_1
  let main_v8 : IVec S_ 1 := andi main_v3 main_v7
  let main_v9 : FVec F S524288 .f32 := Host.absf main_arg3
  let main_cst_2 : FVec F S_ .f32 := constant S_ .f32 0x7F800000#32
  let main_v10 : FVec F S524288 .f32 := broadcastInDim S524288 ![] bcast_S_S524288 main_cst_2
  let main_v11 : IVec S524288 1 := cmpf .olt main_v9 main_v10
  let main_c_3 : IVec S_ 1 := constantI S_ 1 1#1
  let main_v12 : IVec S_ 1 := (fun x v => Host.reduce IntOp.andi x v reducesTo_S524288_S_d0 h_S_) main_v11 main_c_3
  let main_v13 : IVec S_ 1 := andi main_v8 main_v12
  let main_v14 : FVec F S320x256 .f32 := Host.absf main_arg4
  let main_cst_4 : FVec F S_ .f32 := constant S_ .f32 0x7F800000#32
  let main_v15 : FVec F S320x256 .f32 := broadcastInDim S320x256 ![] bcast_S_S320x256 main_cst_4
  let main_v16 : IVec S320x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S32768x128 : Shape := ⟨2, ![32768, 128]⟩
abbrev S32768x3 : Shape := ⟨2, ![32768, 3]⟩
abbrev S2x524288 : Shape := ⟨2, ![2, 524288]⟩
abbrev S524288 : Shape := ⟨1, ![524288]⟩
abbrev S320x256 : Shape := ⟨2, ![320, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1x64 : Shape := ⟨2, ![1, 64]⟩
abbrev S64 : Shape := ⟨1, ![64]⟩
abbrev S64x64 : Shape := ⟨2, ![64, 64]⟩
abbrev S1x524288 : Shape := ⟨2, ![1, 524288]⟩
abbrev S524288x1 : Shape := ⟨2, ![524288, 1]⟩
abbrev S524288x64 : Shape := ⟨2, ![524288, 64]⟩
abbrev S_ : Shape := ⟨0, ![]⟩
abbrev S524288x128 : Shape := ⟨2, ![524288, 128]⟩
abbrev S524288x3 : Shape := ⟨2, ![524288, 3]⟩
abbrev S128x256 : Shape := ⟨2, ![128, 256]⟩
abbrev S64x256 : Shape := ⟨2, ![64, 256]⟩
abbrev S1x256 : Shape := ⟨2, ![1, 256]⟩
abbrev S1x128 : Shape := ⟨2, ![1, 128]⟩
abbrev S2048x128 : Shape := ⟨2, ![2048, 128]⟩
abbrev S2048x64 : Shape := ⟨2, ![2048, 64]⟩
abbrev S2048x3 : Shape := ⟨2, ![2048, 3]⟩
abbrev S2048x256 : Shape := ⟨2, ![2048, 256]⟩
abbrev S2048x1 : Shape := ⟨2, ![2048, 1]⟩
abbrev S2048 : Shape := ⟨1, ![2048]⟩

abbrev nBuf : Space → Nat
  | .hbm => 94
  | .vmem => 25
  | .smem => 0
  | _ => 0

abbrev bufTy : (tb : Table) → Fin (tcTables nBuf tb) → BufTy
  | .hbm, ⟨0, _⟩ => ⟨S32768x128, .f32⟩
  | .hbm, ⟨1, _⟩ => ⟨S32768x3, .f32⟩
  | .hbm, ⟨2, _⟩ => ⟨S2x524288, .i32⟩
  | .hbm, ⟨3, _⟩ => ⟨S524288, .f32⟩
  | .hbm, ⟨4, _⟩ => ⟨S320x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S320x256, .f32⟩
  | .hbm, ⟨9, _⟩ => ⟨S256, .f32⟩
  | .hbm, ⟨10, _⟩ => ⟨S256x1, .f32⟩
  | .hbm, ⟨11, _⟩ => ⟨S1x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x524288, .i32⟩
  | .hbm, ⟨16, _⟩ => ⟨S524288, .i32⟩
  | .hbm, ⟨17, _⟩ => ⟨S1x524288, .i32⟩
  | .hbm, ⟨18, _⟩ => ⟨S524288, .i32⟩
  | .hbm, ⟨19, _⟩ => ⟨S524288x1, .f32⟩
  | .hbm, ⟨20, _⟩ => ⟨S524288x64, .f32⟩
  | .hbm, ⟨21, _⟩ => ⟨S1x64, .f32⟩
  | .hbm, ⟨22, _⟩ => ⟨S524288x64, .f32⟩
  | .hbm, ⟨23, _⟩ => ⟨S524288x64, .f32⟩
  | .hbm, ⟨24, _⟩ => ⟨S524288x64, .f32⟩
  | .hbm, ⟨25, _⟩ => ⟨S524288x64, .f32⟩
  | .hbm, ⟨26, _⟩ => ⟨S_, .f32⟩
  | .hbm, ⟨27, _⟩ => ⟨S524288x64, .f32⟩
  | .hbm, ⟨28, _⟩ => ⟨S524288x64, .f32⟩
  | .hbm, ⟨29, _⟩ => ⟨S_, .f32⟩
  | .hbm, ⟨30, _⟩ => ⟨S524288x64, .f32⟩
  | .hbm, ⟨31, _⟩ => ⟨S524288x64, .f32⟩
  | .hbm, ⟨32, _⟩ => ⟨S524288x64, .f32⟩
  | .hbm, ⟨33, _⟩ => ⟨S524288x64, .f32⟩
  | .hbm, ⟨34, _⟩ => ⟨S1x64, .f32⟩
  | .hbm, ⟨35, _⟩ => ⟨S524288x64, .f32⟩
  | .hbm, ⟨36, _⟩ => ⟨S524288x64, .f32⟩
  | .hbm, ⟨37, _⟩ => ⟨S_, .i32⟩
  | .hbm, ⟨38, _⟩ => ⟨S524288, .i32⟩
  | .hbm, ⟨39, _⟩ => ⟨S524288, .i1⟩
  | .hbm, ⟨40, _⟩ => ⟨S_, .i32⟩
  | .hbm, ⟨41, _⟩ => ⟨S524288, .i32⟩
  | .hbm, ⟨42, _⟩ => ⟨S524288, .i32⟩
  | .hbm, ⟨43, _⟩ => ⟨S524288, .i32⟩
  | .hbm, ⟨44, _⟩ => ⟨S524288x1, .i32⟩
  | .hbm, ⟨45, _⟩ => ⟨S524288x128, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x128, .f32⟩
  | .hbm, ⟨55, _⟩ => ⟨S_, .i32⟩
  | .hbm, ⟨56, _⟩ => ⟨S524288, .i32⟩
  | .hbm, ⟨57, _⟩ => ⟨S524288, .i1⟩
  | .hbm, ⟨58, _⟩ => ⟨S_, .i32⟩
  | .hbm, ⟨59, _⟩ => ⟨S524288, .i32⟩
  | .hbm, ⟨60, _⟩ => ⟨S524288, .i32⟩
  | .hbm, ⟨61, _⟩ => ⟨S524288, .i32⟩
  | .hbm, ⟨62, _⟩ => ⟨S524288x1, .i32⟩
  | .hbm, ⟨63, _⟩ => ⟨S524288x3, .f32⟩
  | .hbm, ⟨64, _⟩ => ⟨S_, .i32⟩
  | .hbm, ⟨65, _⟩ => ⟨S524288, .i32⟩
  | .hbm, ⟨66, _⟩ => ⟨S524288, .i1⟩
  | .hbm, ⟨67, _⟩ => ⟨S_, .i32⟩
  | .hbm, ⟨68, _⟩ => ⟨S524288, .i32⟩
  | .hbm, ⟨69, _⟩ => ⟨S524288, .i32⟩
  | .hbm, ⟨70, _⟩ => ⟨S524288, .i32⟩
  | .hbm, ⟨71, _⟩ => ⟨S524288x1, .i32⟩
  | .hbm, ⟨72, _⟩ => ⟨S524288x3, .f32⟩
  | .hbm, ⟨73, _⟩ => ⟨S128x256, .f32⟩
  | .hbm, ⟨74, _⟩ => ⟨S128x256, .f32⟩
  | .hbm, ⟨75, _⟩ => ⟨S64x256, .f32⟩
  | .hbm, ⟨76, _⟩ => ⟨S128x256, .f32⟩
  | .hbm, ⟨77, _⟩ => ⟨S128x256, .f32⟩
  | .hbm, ⟨78, _⟩ => ⟨S64x256, .f32⟩
  | .hbm, ⟨79, _⟩ => ⟨S1x256, .f32⟩
  | .hbm, ⟨80, _⟩ => ⟨S1x128, .f32⟩
  | .hbm, ⟨81, _⟩ => ⟨S1x256, .f32⟩
  | .hbm, ⟨82, _⟩ => ⟨S524288x128, .f32⟩
  | .hbm, ⟨83, _⟩ => ⟨S524288x3, .f32⟩
  | .hbm, ⟨84, _⟩ => ⟨S_, .f32⟩
  | .hbm, ⟨85, _⟩ => ⟨S32768x128, .f32⟩
  | .hbm, ⟨86, _⟩ => ⟨S524288x1, .i32⟩
  | .hbm, ⟨87, _⟩ => ⟨S32768x128, .f32⟩
  | .hbm, ⟨88, _⟩ => ⟨S_, .f32⟩
  | .hbm, ⟨89, _⟩ => ⟨S32768x3, .f32⟩
  | .hbm, ⟨90, _⟩ => ⟨S524288x1, .i32⟩
  | .hbm, ⟨91, _⟩ => ⟨S32768x3, .f32⟩
  | .hbm, ⟨92, _⟩ => ⟨S32768x128, .f32⟩
  | .hbm, ⟨93, _⟩ => ⟨S32768x3, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x64, .f32⟩
  | .local _ .vmem, ⟨5, _⟩ => ⟨S2048x64, .f32⟩
  | .local _ .vmem, ⟨6, _⟩ => ⟨S2048x3, .f32⟩
  | .local _ .vmem, ⟨7, _⟩ => ⟨S2048x3, .f32⟩
  | .local _ .vmem, ⟨8, _⟩ => ⟨S2048x3, .f32⟩
  | .local _ .vmem, ⟨9, _⟩ => ⟨S2048x3, .f32⟩
  | .local _ .vmem, ⟨10, _⟩ => ⟨S128x256, .f32⟩
  | .local _ .vmem, ⟨11, _⟩ => ⟨S128x256, .f32⟩
  | .local _ .vmem, ⟨12, _⟩ => ⟨S64x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S128x256, .f32⟩
  | .local _ .vmem, ⟨17, _⟩ => ⟨S128x256, .f32⟩
  | .local _ .vmem, ⟨18, _⟩ => ⟨S64x256, .f32⟩
  | .local _ .vmem, ⟨19, _⟩ => ⟨S1x256, .f32⟩
  | .local _ .vmem, ⟨20, _⟩ => ⟨S256x1, .f32⟩
  | .local _ .vmem, ⟨21, _⟩ => ⟨S2048x128, .f32⟩
  | .local _ .vmem, ⟨22, _⟩ => ⟨S2048x128, .f32⟩
  | .local _ .vmem, ⟨23, _⟩ => ⟨S2048x3, .f32⟩
  | .local _ .vmem, ⟨24, _⟩ => ⟨S2048x3, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_3 : Ref sig .tc := ⟨.hbm, 55, rfl⟩
abbrev main_v28 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_5 : Ref sig .tc := ⟨.hbm, 64, rfl⟩
abbrev main_v35 : Ref sig .tc := ⟨.hbm, 65, rfl⟩
abbrev main_v36 : Ref sig .tc := ⟨.hbm, 66, rfl⟩
abbrev main_c_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51_0 : Ref sig .tc := ⟨.hbm, 82, rfl⟩
abbrev main_v51_1 : Ref sig .tc := ⟨.hbm, 83, rfl⟩
abbrev main_cst : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_7 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S524288_S524288x1_0 : S524288.BroadcastsInDim S524288x1 (![0] : Fin 1 → Fin S524288x1.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  bcast_S_S524288 : S_.BroadcastsInDim S524288 (![] : Fin 0 → Fin S524288.rank)
  slices_S320x256_S128x256_0_0 : S320x256.Slices ![0, 0] S128x256
  slices_S320x256_S128x256_128_0 : S320x256.Slices ![128, 0] S128x256
  slices_S320x256_S64x256_256_0 : S320x256.Slices ![256, 0] S64x256
  shapeCasts_S256_S1x256 : S256.ShapeCasts S1x256
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S256x1_S256x1_0_0 : ∀ a, (![0, 0] : Fin 2 → Nat) a + S256x1.size a ≤ S256x1.size a
  h_S256x1 : 0 < S256x1.numel
  broadcasts_S1x256_S2048x256 : S1x256.Broadcasts S2048x256
  broadcasts_S1x128_S2048x128 : S1x128.Broadcasts S2048x128
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  reduces_S2048x3_S2048 : S2048x3.Reduces [1] S2048
  shapeCasts_S2048_S2048x1 : S2048.ShapeCasts S2048x1
  broadcasts_S2048x1_S2048x3 : S2048x1.Broadcasts S2048x3
  bcast_S_S32768x128 : S_.BroadcastsInDim S32768x128 (![] : Fin 0 → Fin S32768x128.rank)
  bcast_S_S32768x3 : S_.BroadcastsInDim S32768x3 (![] : Fin 0 → Fin S32768x3.rank)
  dot_S524288x1_S1x64_S524288x64_1_0_0_1_n_n_wf : DotDims.WF S524288x1 S1x64 S524288x64 [1] [0] [0] [1] [] []
  dot_S524288x64_S64x64_S524288x64_1_0_0_1_n_n_wf : DotDims.WF S524288x64 S64x64 S524288x64 [1] [0] [0] [1] [] []
  gather_S32768x128_S524288x1_S524288x128_1_0_n_n_0_1_1128_wf : GatherDims.WF S32768x128 S524288x1 S524288x128 [1] [0] [] [0] [] 1 ![1, 128]
  gather_S32768x3_S524288x1_S524288x3_1_0_n_n_0_1_13_wf : GatherDims.WF S32768x3 S524288x1 S524288x3 [1] [0] [] [0] [] 1 ![1, 3]
  dot_S2048x128_S128x256_S2048x256_1_0_0_1_n_n_wf : DotDims.WF S2048x128 S128x256 S2048x256 [1] [0] [0] [1] [] []
  dot_S2048x64_S64x256_S2048x256_1_0_0_1_n_n_wf : DotDims.WF S2048x64 S64x256 S2048x256 [1] [0] [0] [1] [] []
  dot_S2048x256_S256x128_S2048x128_1_0_0_1_n_n_wf : DotDims.WF S2048x256 S256x128 S2048x128 [1] [0] [0] [1] [] []
  dot_S2048x256_S256x1_S2048x1_1_0_0_1_n_n_wf : DotDims.WF S2048x256 S256x1 S2048x1 [1] [0] [0] [1] [] []
  scatter_S32768x128_S524288x1_S524288x128_1_0_0_1_wf : ScatterDims.WF S32768x128 S524288x1 S524288x128 [1] [0] [0] 1
  scatter_S32768x3_S524288x1_S524288x3_1_0_0_1_wf : ScatterDims.WF S32768x3 S524288x1 S524288x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S524288x128.size a
  hwx0_0 : ∀ i : grid0.Coords, EltTy.bits .f32 = 32 ∨ (Rect.block (s := S524288x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S524288x128.size a
  hwx0_1 : ∀ i : grid0.Coords, EltTy.bits .f32 = 32 ∨ (Rect.block (s := S524288x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S524288x64.size a
  hwx0_2 : ∀ i : grid0.Coords, EltTy.bits .f32 = 32 ∨ (Rect.block (s := S524288x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x3.size a ≤ S524288x3.size a
  hwx0_3 : ∀ i : grid0.Coords, EltTy.bits .f32 = 32 ∨ (Rect.block (s := S524288x3) S2048x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x3.size a ≤ S524288x3.size a
  hwx0_4 : ∀ i : grid0.Coords, EltTy.bits .f32 = 32 ∨ (Rect.block (s := S524288x3) S2048x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x256.size a ≤ S128x256.size a
  hwx0_11 : ∀ i : grid0.Coords, EltTy.bits .f32 = 32 ∨ (Rect.block (s := S128x256) S128x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x256.size a ≤ S128x256.size a
  hwx0_12 : ∀ i : grid0.Coords, EltTy.bits .f32 = 32 ∨ (Rect.block (s := S128x256) S128x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x256.size a ≤ S64x256.size a
  hwx0_13 : ∀ i : grid0.Coords, EltTy.bits .f32 = 32 ∨ (Rect.block (s := S64x256) S64x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x1.size a ≤ S256x1.size a
  hwx0_15 : ∀ i : grid0.Coords, EltTy.bits .f32 = 32 ∨ (Rect.block (s := S256x1) S256x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x128.size a ≤ S524288x128.size a
  hwx0_16 : ∀ i : grid0.Coords, EltTy.bits .f32 = 32 ∨ (Rect.block (s := S524288x128) S2048x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x3.size a ≤ S524288x3.size a
  hwx0_17 : ∀ i : grid0.Coords, EltTy.bits .f32 = 32 ∨ (Rect.block (s := S524288x3) S2048x3.size (cc0_transform_17 i) (hinb0_17 i)).WholeWords (EltTy.packing .f32)

variable [Facts₀]

def dot_S524288x1_S1x64_S524288x64_1_0_0_1_n_n : DotDims S524288x1 S1x64 S524288x64 where
  lhsContracting := [1]
  rhsContracting := [0]
  lhsNonContracting := [0]
  rhsNonContracting := [1]
  lhsBatch := []
  rhsBatch := []
  wf := dot_S524288x1_S1x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def gather_S32768x3_S524288x1_S524288x3_1_0_n_n_0_1_13 : GatherDims S32768x3 S524288x1 S524288x3 where
  offsetDims := [1]
  collapsedSliceDims := [0]
  operandBatchingDims := []
  startIndicesBatchingDims := []
  startIndexMap := [0]
  indexVectorDim := 1
  sliceSizes := ![1, 3]
  wf := gather_S32768x3_S524288x1_S524288x3_1_0_n_n_0_1_13_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def scatter_S32768x3_S524288x1_S524288x3_1_0_0_1 : ScatterDims S32768x3 S524288x1 S524288x3 where
  updateWindowDims := [1]
  insertedWindowDims := [0]
  scatterDimsToOperandDims := [0]
  indexVectorDim := 1
  wf := scatter_S32768x3_S524288x1_S524288x3_1_0_0_1_wf

abbrev win0_0 : Pipeline.Window sig grid0 :=
  Pipeline.Window.ofSpec (Memref.whole main_v20) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2048x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S2048x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S128x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v46) S128x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S64x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v50) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg10) S256x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v51_0) S2048x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v51_1) S2048x3.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x3 : Shape := ⟨2, ![32768, 3]⟩
abbrev S2x524288 : Shape := ⟨2, ![2, 524288]⟩
abbrev S524288 : Shape := ⟨1, ![524288]⟩
abbrev S320x256 : Shape := ⟨2, ![320, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1x64 : Shape := ⟨2, ![1, 64]⟩
abbrev S64 : Shape := ⟨1, ![64]⟩
abbrev S64x64 : Shape := ⟨2, ![64, 64]⟩
abbrev S1x524288 : Shape := ⟨2, ![1, 524288]⟩
abbrev S524288x1 : Shape := ⟨2, ![524288, 1]⟩
abbrev S524288x64 : Shape := ⟨2, ![524288, 64]⟩
abbrev S_ : Shape := ⟨0, ![]⟩
abbrev S524288x128 : Shape := ⟨2, ![524288, 128]⟩
abbrev S524288x320 : Shape := ⟨2, ![524288, 320]⟩
abbrev S524288x256 : Shape := ⟨2, ![524288, 256]⟩
abbrev S1x256 : Shape := ⟨2, ![1, 256]⟩
abbrev S1x128 : Shape := ⟨2, ![1, 128]⟩
abbrev S524288x3 : Shape := ⟨2, ![524288, 3]⟩

abbrev nBuf : Space → Nat
  | .hbm => 128
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x3, .f32⟩
  | .hbm, ⟨2, _⟩ => ⟨S2x524288, .i32⟩
  | .hbm, ⟨3, _⟩ => ⟨S524288, .f32⟩
  | .hbm, ⟨4, _⟩ => ⟨S320x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S320x256, .f32⟩
  | .hbm, ⟨9, _⟩ => ⟨S256, .f32⟩
  | .hbm, ⟨10, _⟩ => ⟨S256x1, .f32⟩
  | .hbm, ⟨11, _⟩ => ⟨S1x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x524288, .i32⟩
  | .hbm, ⟨16, _⟩ => ⟨S524288, .i32⟩
  | .hbm, ⟨17, _⟩ => ⟨S1x524288, .i32⟩
  | .hbm, ⟨18, _⟩ => ⟨S524288, .i32⟩
  | .hbm, ⟨19, _⟩ => ⟨S524288x1, .f32⟩
  | .hbm, ⟨20, _⟩ => ⟨S524288x64, .f32⟩
  | .hbm, ⟨21, _⟩ => ⟨S1x64, .f32⟩
  | .hbm, ⟨22, _⟩ => ⟨S524288x64, .f32⟩
  | .hbm, ⟨23, _⟩ => ⟨S524288x64, .f32⟩
  | .hbm, ⟨24, _⟩ => ⟨S524288x64, .f32⟩
  | .hbm, ⟨25, _⟩ => ⟨S524288x64, .f32⟩
  | .hbm, ⟨26, _⟩ => ⟨S_, .f32⟩
  | .hbm, ⟨27, _⟩ => ⟨S524288x64, .f32⟩
  | .hbm, ⟨28, _⟩ => ⟨S524288x64, .f32⟩
  | .hbm, ⟨29, _⟩ => ⟨S_, .f32⟩
  | .hbm, ⟨30, _⟩ => ⟨S524288x64, .f32⟩
  | .hbm, ⟨31, _⟩ => ⟨S524288x64, .f32⟩
  | .hbm, ⟨32, _⟩ => ⟨S524288x64, .f32⟩
  | .hbm, ⟨33, _⟩ => ⟨S524288x64, .f32⟩
  | .hbm, ⟨34, _⟩ => ⟨S1x64, .f32⟩
  | .hbm, ⟨35, _⟩ => ⟨S524288x64, .f32⟩
  | .hbm, ⟨36, _⟩ => ⟨S524288x64, .f32⟩
  | .hbm, ⟨37, _⟩ => ⟨S_, .i32⟩
  | .hbm, ⟨38, _⟩ => ⟨S524288, .i32⟩
  | .hbm, ⟨39, _⟩ => ⟨S524288, .i1⟩
  | .hbm, ⟨40, _⟩ => ⟨S_, .i32⟩
  | .hbm, ⟨41, _⟩ => ⟨S524288, .i32⟩
  | .hbm, ⟨42, _⟩ => ⟨S524288, .i32⟩
  | .hbm, ⟨43, _⟩ => ⟨S524288, .i32⟩
  | .hbm, ⟨44, _⟩ => ⟨S524288x1, .i32⟩
  | .hbm, ⟨45, _⟩ => ⟨S524288x128, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x128, .f32⟩
  | .hbm, ⟨55, _⟩ => ⟨S524288x320, .f32⟩
  | .hbm, ⟨56, _⟩ => ⟨S524288x256, .f32⟩
  | .hbm, ⟨57, _⟩ => ⟨S1x256, .f32⟩
  | .hbm, ⟨58, _⟩ => ⟨S524288x256, .f32⟩
  | .hbm, ⟨59, _⟩ => ⟨S524288x256, .f32⟩
  | .hbm, ⟨60, _⟩ => ⟨S524288x256, .f32⟩
  | .hbm, ⟨61, _⟩ => ⟨S524288x256, .f32⟩
  | .hbm, ⟨62, _⟩ => ⟨S_, .f32⟩
  | .hbm, ⟨63, _⟩ => ⟨S524288x256, .f32⟩
  | .hbm, ⟨64, _⟩ => ⟨S524288x256, .f32⟩
  | .hbm, ⟨65, _⟩ => ⟨S_, .f32⟩
  | .hbm, ⟨66, _⟩ => ⟨S524288x256, .f32⟩
  | .hbm, ⟨67, _⟩ => ⟨S524288x256, .f32⟩
  | .hbm, ⟨68, _⟩ => ⟨S524288x256, .f32⟩
  | .hbm, ⟨69, _⟩ => ⟨S524288x128, .f32⟩
  | .hbm, ⟨70, _⟩ => ⟨S1x128, .f32⟩
  | .hbm, ⟨71, _⟩ => ⟨S524288x128, .f32⟩
  | .hbm, ⟨72, _⟩ => ⟨S524288x128, .f32⟩
  | .hbm, ⟨73, _⟩ => ⟨S_, .f32⟩
  | .hbm, ⟨74, _⟩ => ⟨S32768x128, .f32⟩
  | .hbm, ⟨75, _⟩ => ⟨S524288x1, .i32⟩
  | .hbm, ⟨76, _⟩ => ⟨S32768x128, .f32⟩
  | .hbm, ⟨77, _⟩ => ⟨S524288x256, .f32⟩
  | .hbm, ⟨78, _⟩ => ⟨S1x256, .f32⟩
  | .hbm, ⟨79, _⟩ => ⟨S524288x256, .f32⟩
  | .hbm, ⟨80, _⟩ => ⟨S524288x256, .f32⟩
  | .hbm, ⟨81, _⟩ => ⟨S524288x256, .f32⟩
  | .hbm, ⟨82, _⟩ => ⟨S524288x256, .f32⟩
  | .hbm, ⟨83, _⟩ => ⟨S_, .f32⟩
  | .hbm, ⟨84, _⟩ => ⟨S524288x256, .f32⟩
  | .hbm, ⟨85, _⟩ => ⟨S524288x256, .f32⟩
  | .hbm, ⟨86, _⟩ => ⟨S_, .f32⟩
  | .hbm, ⟨87, _⟩ => ⟨S524288x256, .f32⟩
  | .hbm, ⟨88, _⟩ => ⟨S524288x256, .f32⟩
  | .hbm, ⟨89, _⟩ => ⟨S524288x256, .f32⟩
  | .hbm, ⟨90, _⟩ => ⟨S524288x1, .f32⟩
  | .hbm, ⟨91, _⟩ => ⟨S_, .i32⟩
  | .hbm, ⟨92, _⟩ => ⟨S524288, .i32⟩
  | .hbm, ⟨93, _⟩ => ⟨S524288, .i1⟩
  | .hbm, ⟨94, _⟩ => ⟨S_, .i32⟩
  | .hbm, ⟨95, _⟩ => ⟨S524288, .i32⟩
  | .hbm, ⟨96, _⟩ => ⟨S524288, .i32⟩
  | .hbm, ⟨97, _⟩ => ⟨S524288, .i32⟩
  | .hbm, ⟨98, _⟩ => ⟨S524288x1, .i32⟩
  | .hbm, ⟨99, _⟩ => ⟨S524288x3, .f32⟩
  | .hbm, ⟨100, _⟩ => ⟨S_, .i32⟩
  | .hbm, ⟨101, _⟩ => ⟨S524288, .i32⟩
  | .hbm, ⟨102, _⟩ => ⟨S524288, .i1⟩
  | .hbm, ⟨103, _⟩ => ⟨S_, .i32⟩
  | .hbm, ⟨104, _⟩ => ⟨S524288, .i32⟩
  | .hbm, ⟨105, _⟩ => ⟨S524288, .i32⟩
  | .hbm, ⟨106, _⟩ => ⟨S524288, .i32⟩
  | .hbm, ⟨107, _⟩ => ⟨S524288x1, .i32⟩
  | .hbm, ⟨108, _⟩ => ⟨S524288x3, .f32⟩
  | .hbm, ⟨109, _⟩ => ⟨S524288x3, .f32⟩
  | .hbm, ⟨110, _⟩ => ⟨S524288x3, .f32⟩
  | .hbm, ⟨111, _⟩ => ⟨S_, .f32⟩
  | .hbm, ⟨112, _⟩ => ⟨S524288, .f32⟩
  | .hbm, ⟨113, _⟩ => ⟨S524288x1, .f32⟩
  | .hbm, ⟨114, _⟩ => ⟨S524288x1, .f32⟩
  | .hbm, ⟨115, _⟩ => ⟨S_, .f32⟩
  | .hbm, ⟨116, _⟩ => ⟨S524288x1, .f32⟩
  | .hbm, ⟨117, _⟩ => ⟨S524288x1, .f32⟩
  | .hbm, ⟨118, _⟩ => ⟨S524288x3, .f32⟩
  | .hbm, ⟨119, _⟩ => ⟨S524288x3, .f32⟩
  | .hbm, ⟨120, _⟩ => ⟨S524288x3, .f32⟩
  | .hbm, ⟨121, _⟩ => ⟨S524288x3, .f32⟩
  | .hbm, ⟨122, _⟩ => ⟨S_, .f32⟩
  | .hbm, ⟨123, _⟩ => ⟨S32768x3, .f32⟩
  | .hbm, ⟨124, _⟩ => ⟨S524288x1, .i32⟩
  | .hbm, ⟨125, _⟩ => ⟨S32768x3, .f32⟩
  | .hbm, ⟨126, _⟩ => ⟨S32768x128, .f32⟩
  | .hbm, ⟨127, _⟩ => ⟨S32768x3, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v45 : Ref sig .tc := ⟨.hbm, 89, rfl⟩
abbrev main_v46 : Ref sig .tc := ⟨.hbm, 90, rfl⟩
abbrev main_c_3 : Ref sig .tc := ⟨.hbm, 91, rfl⟩
abbrev main_v47 : Ref sig .tc := ⟨.hbm, 92, rfl⟩
abbrev main_v48 : Ref sig .tc := ⟨.hbm, 93, rfl⟩
abbrev main_c_4 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_5 : Ref sig .tc := ⟨.hbm, 100, rfl⟩
abbrev main_v54 : Ref sig .tc := ⟨.hbm, 101, rfl⟩
abbrev main_v55 : Ref sig .tc := ⟨.hbm, 102, rfl⟩
abbrev main_c_6 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_call3_v0 : Ref sig .tc := ⟨.hbm, 110, rfl⟩
abbrev main_call3_cst : Ref sig .tc := ⟨.hbm, 111, rfl⟩
abbrev main_call3_v1 : Ref sig .tc := ⟨.hbm, 112, rfl⟩
abbrev main_call3_v2 : Ref sig .tc := ⟨.hbm, 113, rfl⟩
abbrev main_v62 : Ref sig .tc := ⟨.hbm, 114, rfl⟩
abbrev main_cst_7 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_8 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S524288_S524288x1_0 : S524288.BroadcastsInDim S524288x1 (![0] : Fin 1 → Fin S524288x1.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  bcast_S_S524288 : S_.BroadcastsInDim S524288 (![] : Fin 0 → Fin S524288.rank)
  concatenates_S524288x128_S524288x128_S524288x64_S524288x320_d1 : Shape.Concatenates [S524288x128, S524288x128, S524288x64] S524288x320 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S32768x128 : S_.BroadcastsInDim S32768x128 (![] : Fin 0 → Fin S32768x128.rank)
  reducesTo_S524288x3_S524288_d1 : S524288x3.ReducesTo [1] S524288
  h_S_ : 0 < S_.numel
  bcast_S_S524288x1 : S_.BroadcastsInDim S524288x1 (![] : Fin 0 → Fin S524288x1.rank)
  bcast_S524288x1_S524288x3_0_1 : S524288x1.BroadcastsInDim S524288x3 (![0, 1] : Fin 2 → Fin S524288x3.rank)
  bcast_S_S32768x3 : S_.BroadcastsInDim S32768x3 (![] : Fin 0 → Fin S32768x3.rank)
  dot_S524288x1_S1x64_S524288x64_1_0_0_1_n_n_wf : DotDims.WF S524288x1 S1x64 S524288x64 [1] [0] [0] [1] [] []
  dot_S524288x64_S64x64_S524288x64_1_0_0_1_n_n_wf : DotDims.WF S524288x64 S64x64 S524288x64 [1] [0] [0] [1] [] []
  gather_S32768x128_S524288x1_S524288x128_1_0_n_n_0_1_1128_wf : GatherDims.WF S32768x128 S524288x1 S524288x128 [1] [0] [] [0] [] 1 ![1, 128]
  dot_S524288x320_S320x256_S524288x256_1_0_0_1_n_n_wf : DotDims.WF S524288x320 S320x256 S524288x256 [1] [0] [0] [1] [] []
  dot_S524288x256_S256x128_S524288x128_1_0_0_1_n_n_wf : DotDims.WF S524288x256 S256x128 S524288x128 [1] [0] [0] [1] [] []
  scatter_S32768x128_S524288x1_S524288x128_1_0_0_1_wf : ScatterDims.WF S32768x128 S524288x1 S524288x128 [1] [0] [0] 1
  dot_S524288x256_S256x1_S524288x1_1_0_0_1_n_n_wf : DotDims.WF S524288x256 S256x1 S524288x1 [1] [0] [0] [1] [] []
  gather_S32768x3_S524288x1_S524288x3_1_0_n_n_0_1_13_wf : GatherDims.WF S32768x3 S524288x1 S524288x3 [1] [0] [] [0] [] 1 ![1, 3]
  scatter_S32768x3_S524288x1_S524288x3_1_0_0_1_wf : ScatterDims.WF S32768x3 S524288x1 S524288x3 [1] [0] [0] 1

variable [Facts₀]

def dot_S524288x1_S1x64_S524288x64_1_0_0_1_n_n : DotDims S524288x1 S1x64 S524288x64 where
  lhsContracting := [1]
  rhsContracting := [0]
  lhsNonContracting := [0]
  rhsNonContracting := [1]
  lhsBatch := []
  rhsBatch := []
  wf := dot_S524288x1_S1x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S524288x320_S320x256_S524288x256_1_0_0_1_n_n : DotDims S524288x320 S320x256 S524288x256 where
  lhsContracting := [1]
  rhsContracting := [0]
  lhsNonContracting := [0]
  rhsNonContracting := [1]
  lhsBatch := []
  rhsBatch := []
  wf := dot_S524288x320_S320x256_S524288x256_1_0_0_1_n_n_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf
def gather_S32768x3_S524288x1_S524288x3_1_0_n_n_0_1_13 : GatherDims S32768x3 S524288x1 S524288x3 where
  offsetDims := [1]
  collapsedSliceDims := [0]
  operandBatchingDims := []
  startIndicesBatchingDims := []
  startIndexMap := [0]
  indexVectorDim := 1
  sliceSizes := ![1, 3]
  wf := gather_S32768x3_S524288x1_S524288x3_1_0_n_n_0_1_13_wf
def scatter_S32768x3_S524288x1_S524288x3_1_0_0_1 : ScatterDims S32768x3 S524288x1 S524288x3 where
  updateWindowDims := [1]
  insertedWindowDims := [0]
  scatterDimsToOperandDims := [0]
  indexVectorDim := 1
  wf := scatter_S32768x3_S524288x1_S524288x3_1_0_0_1_wf

class Facts : Prop extends Facts₀ where

variable [Facts]
-- ==== Proof.Spec.lean ====
/-
  The mathematics of one edge of the message-passing layer, on the extended reals, with no program in sight.

  For one edge the layer reads the two gathered node rows `a`, `b` (128 entries each), the edge's attribute row `c`
  (64 entries) and the two gathered coordinate rows. Its hidden pre-activation at unit `k` is the bias plus the
  product of the joined row (a, b, c) with the 320 × 256 weight matrix. The kernel never joins the three rows: it
  multiplies each with its own band of the weight matrix and adds the three partial sums. `hidden1_eq_hidden3` is
  the law between the two arrangements: a sum over 320 = 128 + 128 + 64 indices is the sum of the sums over the
  three bands; addition on the extended reals is commutative and associative, so no finiteness is needed.
  The activation is x · σ(x) with σ(x) = 1 / (1 + e⁻ˣ), which is how both sides spell it (`silu_expanded`).
-/
import Idealize.ShloMosaic.PureOps.Ideal
import Idealize.ShloMosaic.PureOps.Ideal.Laws
import Mathlib.Algebra.BigOperators.Fin

noncomputable section

namespace Cert.Egnn

open Idealize.ShloMosaic

/-- The f32 word 0x3F800000 denotes the real 1. -/
theorem one_f32 : Ideal.ofBits .f32 0x3F800000#32 = 1 := by
  simp [Ideal.ofBits, Ideal.ieee, -EReal.coe_mul]; norm_num

/-- x · σ(x). -/
def silu (x : EReal) : EReal := x * Ideal.logistic x

/-- The activation written out with the literal 1.0: x · (1 / (1 + e⁻ˣ)). -/
theorem silu_expanded (x : EReal) :
    x * Ideal.div (Ideal.ofBits .f32 0x3F800000#32) (Ideal.ofBits .f32 0x3F800000#32 + Ideal.exp (-x)) = silu x := by
  rw [one_f32]; rfl

/-- The hidden pre-activation at unit `k`, band by band: (a·Ws + b·Wd) + c·We + bias. -/
def hidden3 (a b : Fin 128 → EReal) (c : Fin 64 → EReal) (Ws Wd : Fin 128 → Fin 256 → EReal) (We : Fin 64 → Fin 256 → EReal)
    (bias : Fin 256 → EReal) (k : Fin 256) : EReal :=
  ((∑ i : Fin 128, a i * Ws i k + ∑ i : Fin 128, b i * Wd i k) + ∑ i : Fin 64, c i * We i k) + bias k

/-- The same with the three rows joined: r·W + bias. -/
def hidden1 (r : Fin 320 → EReal) (W : Fin 320 → Fin 256 → EReal) (bias : Fin 256 → EReal) (k : Fin 256) : EReal :=
  (∑ i : Fin 320, r i * W i k) + bias k

/-- The three bands of a 320-row object. -/
abbrev band0 (i : Fin 128) : Fin 320 := ⟨i.val, by have := i.isLt; omega⟩
abbrev band1 (i : Fin 128) : Fin 320 := ⟨128 + i.val, by have := i.isLt; omega⟩
abbrev band2 (i : Fin 64) : Fin 320 := ⟨256 + i.val, by have := i.isLt; omega⟩

/-- A sum over 320 indices is the sum of the sums over its three bands. -/
theorem sum_bands {M : Type*} [AddCommMonoid M] (f : Fin 320 → M) :
    ∑ i : Fin 320, f i = (∑ i : Fin 128, f (band0 i) + ∑ i : Fin 128, f (band1 i)) + ∑ i : Fin 64, f (band2 i) := by
  have h1 : ∑ i : Fin 320, f i = ∑ i : Fin (256 + 64), f i := rfl
  rw [h1, Fin.sum_univ_add]
  have h2 : ∑ i : Fin 256, f (Fin.castAdd 64 i) = ∑ i : Fin (128 + 128), f (Fin.castAdd 64 i) := rfl
  rw [h2, Fin.sum_univ_add]
  rfl

theorem hidden1_eq_hidden3 (r : Fin 320 → EReal) (W : Fin 320 → Fin 256 → EReal) (bias : Fin 256 → EReal) (k : Fin 256) :
    hidden1 r W bias k = hidden3 (fun i => r (band0 i)) (fun i => r (band1 i)) (fun i => r (band2 i))
      (fun i => W (band0 i)) (fun i => W (band1 i)) (fun i => W (band2 i)) bias k := by
  unfold hidden1 hidden3
  rw [sum_bands]

/-- The message of one edge at output unit `j`: silu(hidden) · W2 + b2. -/
def msg3 (a b : Fin 128 → EReal) (c : Fin 64 → EReal) (Ws Wd : Fin 128 → Fin 256 → EReal) (We : Fin 64 → Fin 256 → EReal)
    (b1 : Fin 256 → EReal) (W2 : Fin 256 → Fin 128 → EReal) (b2 : Fin 128 → EReal) (j : Fin 128) : EReal :=
  (∑ k : Fin 256, silu (hidden3 a b c Ws Wd We b1 k) * W2 k j) + b2 j

/-- The coordinate weight of one edge: silu(hidden) · w2 (no bias). -/
def coord3 (a b : Fin 128 → EReal) (c : Fin 64 → EReal) (Ws Wd : Fin 128 → Fin 256 → EReal) (We : Fin 64 → Fin 256 → EReal)
    (b1 : Fin 256 → EReal) (w2 : Fin 256 → EReal) : EReal :=
  ∑ k : Fin 256, silu (hidden3 a b c Ws Wd We b1 k) * w2 k

/-- The weighted unit direction of one edge at coordinate `d`: w · (xs − xd) / max(‖xs − xd‖, ε), ε the f32 word 0x322BCC77. -/
def dirw (w : EReal) (xs xd : Fin 3 → EReal) (d : Fin 3) : EReal :=
  w * Ideal.div (xs d - xd d)
    (max (Ideal.sqrt (∑ k : Fin 3, (xs k - xd k) * (xs k - xd k))) (Ideal.ofBits .f32 0x322BCC77#32))

end Cert.Egnn

end
-- ==== Proof.HostPre.lean ====
/-
  What each array the kernel region reads holds when the region is entered, as a function of the launch arguments.

  The gathered node rows, the edge attributes and the gathered coordinates are produced by the same host operations in
  both programs, so they are carried as the reference's own stage functions of the arguments and never opened. The weight
  bands are row slices of the two 320 × 256 matrices (rows 0–127, 128–255, 256–319), and the three biases are the
  argument vectors recast as one-row matrices; those are read at an index.
-/
import proofs.«181356_j2319282340045_1_alg».proof.Proof.Gen.KernelIdeal.Frame
import proofs.«181356_j2319282340045_1_alg».proof.Proof.Gen.ReferenceIdeal.Read
import proofs.«181356_j2319282340045_1_alg».proof.Proof.Spec
import Idealize.ShloMosaic.Lib.StableHlo.Run
import Idealize.ShloMosaic.Lib.ValueLayout

noncomputable section

namespace Cert.KernelIdeal.HostPre

open Idealize.ShloMosaic Idealize.ShloMosaic.TcCoe Idealize.SL.Sem Idealize.ShloMosaic.ValueIdx Idealize.ShloMosaic.StableHlo
open Cert.KernelIdeal Cert.KernelIdeal.Gen Cert.Egnn

variable (m : (ℓ : Loc nD τ sig) → Buf (Elt Ideal) ℓ)

/-! ## The launch arguments on core `c`, typed as the reference's stage functions take them -/

abbrev a0 (c : Dev nD) : (⟨Cert.ReferenceIdeal.S32768x128, .f32⟩ : BufTy).Contents (Elt Ideal) := m ((c : Thread nD τ).loc main_arg0)
abbrev a1 (c : Dev nD) : (⟨Cert.ReferenceIdeal.S32768x3, .f32⟩ : BufTy).Contents (Elt Ideal) := m ((c : Thread nD τ).loc main_arg1)
abbrev a2 (c : Dev nD) : (⟨Cert.ReferenceIdeal.S2x524288, .i32⟩ : BufTy).Contents (Elt Ideal) := m ((c : Thread nD τ).loc main_arg2)
abbrev a3 (c : Dev nD) : (⟨Cert.ReferenceIdeal.S524288, .f32⟩ : BufTy).Contents (Elt Ideal) := m ((c : Thread nD τ).loc main_arg3)
abbrev a4 (c : Dev nD) : (⟨Cert.ReferenceIdeal.S320x256, .f32⟩ : BufTy).Contents (Elt Ideal) := m ((c : Thread nD τ).loc main_arg4)
abbrev a5 (c : Dev nD) : (⟨Cert.ReferenceIdeal.S256, .f32⟩ : BufTy).Contents (Elt Ideal) := m ((c : Thread nD τ).loc main_arg5)
abbrev a6 (c : Dev nD) : (⟨Cert.ReferenceIdeal.S256x128, .f32⟩ : BufTy).Contents (Elt Ideal) := m ((c : Thread nD τ).loc main_arg6)
abbrev a7 (c : Dev nD) : (⟨Cert.ReferenceIdeal.S128, .f32⟩ : BufTy).Contents (Elt Ideal) := m ((c : Thread nD τ).loc main_arg7)
abbrev a8 (c : Dev nD) : (⟨Cert.ReferenceIdeal.S320x256, .f32⟩ : BufTy).Contents (Elt Ideal) := m ((c : Thread nD τ).loc main_arg8)
abbrev a9 (c : Dev nD) : (⟨Cert.ReferenceIdeal.S256, .f32⟩ : BufTy).Contents (Elt Ideal) := m ((c : Thread nD τ).loc main_arg9)
abbrev a10 (c : Dev nD) : (⟨Cert.ReferenceIdeal.S256x1, .f32⟩ : BufTy).Contents (Elt Ideal) := m ((c : Thread nD τ).loc main_arg10)
abbrev a11 (c : Dev nD) : (⟨Cert.ReferenceIdeal.S1x64, .f32⟩ : BufTy).Contents (Elt Ideal) := m ((c : Thread nD τ).loc main_arg11)
abbrev a12 (c : Dev nD) : (⟨Cert.ReferenceIdeal.S64, .f32⟩ : BufTy).Contents (Elt Ideal) := m ((c : Thread nD τ).loc main_arg12)
abbrev a13 (c : Dev nD) : (⟨Cert.ReferenceIdeal.S64x64, .f32⟩ : BufTy).Contents (Elt Ideal) := m ((c : Thread nD τ).loc main_arg13)
abbrev a14 (c : Dev nD) : (⟨Cert.ReferenceIdeal.S64, .f32⟩ : BufTy).Contents (Elt Ideal) := m ((c : Thread nD τ).loc main_arg14)

/-! ## The per-edge arrays: the reference's own stages of the arguments -/

set_option maxRecDepth 8192 in
/-- The source rows gathered from the node table. -/
theorem V_hsrc (c : Dev nD) : V m c main_v20 = Cert.ReferenceIdeal.Read.val_main_v20 (F := Ideal) (a0 m c) (a2 m c) := by
  dsimp only [V, V0]
  simp only [hostOps0, hostOps0_1, hostOps0_2, List.flatten_cons, List.flatten_nil, List.append_nil, List.cons_append, List.nil_append]
  after_results_simp <;> rfl

set_option maxRecDepth 8192 in
/-- The destination rows gathered from the node table. -/
theorem V_hdst (c : Dev nD) : V m c main_v27 = Cert.ReferenceIdeal.Read.val_main_v27 (F := Ideal) (a0 m c) (a2 m c) := by
  dsimp only [V, V0]
  simp only [hostOps0, hostOps0_1, hostOps0_2, List.flatten_cons, List.flatten_nil, List.append_nil, List.cons_append, List.nil_append]
  after_results_simp <;> rfl

set_option maxRecDepth 8192 in
/-- The edge attributes: the small distance network's output. -/
theorem V_eattr (c : Dev nD) : V m c main_v13 = Cert.ReferenceIdeal.Read.val_main_v13 (F := Ideal) (a3 m c) (a11 m c) (a12 m c) (a13 m c) (a14 m c) := by
  dsimp only [V, V0]
  simp only [hostOps0, hostOps0_1, hostOps0_2, List.flatten_cons, List.flatten_nil, List.append_nil, List.cons_append, List.nil_append]
  after_results_simp <;> rfl

set_option maxRecDepth 8192 in
/-- The source coordinates gathered from the coordinate table. -/
theorem V_xsrc (c : Dev nD) : V m c main_v34 = Cert.ReferenceIdeal.Read.val_main_v53 (F := Ideal) (a1 m c) (a2 m c) := by
  dsimp only [V, V0]
  simp only [hostOps0, hostOps0_1, hostOps0_2, List.flatten_cons, List.flatten_nil, List.append_nil, List.cons_append, List.nil_append]
  after_results_simp <;> rfl

set_option maxRecDepth 8192 in
/-- The destination coordinates gathered from the coordinate table. -/
theorem V_xdst (c : Dev nD) : V m c main_v41 = Cert.ReferenceIdeal.Read.val_main_v60 (F := Ideal) (a1 m c) (a2 m c) := by
  dsimp only [V, V0]
  simp only [hostOps0, hostOps0_1, hostOps0_2, List.flatten_cons, List.flatten_nil, List.append_nil, List.cons_append, List.nil_append]
  after_results_simp <;> rfl

/-! ## The weight bands and the biases, read at an index -/

set_option maxRecDepth 8192 in
theorem V_v42 (c : Dev nD) : V m c main_v42 = extractStridedSlice S128x256 ![0, 0] (m ((c : Thread nD τ).loc main_arg4)) slices_S320x256_S128x256_0_0 := by
  dsimp only [V, V0]
  simp only [hostOps0, hostOps0_1, hostOps0_2, List.flatten_cons, List.flatten_nil, List.append_nil, List.cons_append, List.nil_append]
  after_results_simp <;> rfl
set_option maxRecDepth 8192 in
theorem V_v43 (c : Dev nD) : V m c main_v43 = extractStridedSlice S128x256 ![128, 0] (m ((c : Thread nD τ).loc main_arg4)) slices_S320x256_S128x256_128_0 := by
  dsimp only [V, V0]
  simp only [hostOps0, hostOps0_1, hostOps0_2, List.flatten_cons, List.flatten_nil, List.append_nil, List.cons_append, List.nil_append]
  after_results_simp <;> rfl
set_option maxRecDepth 8192 in
theorem V_v44 (c : Dev nD) : V m c main_v44 = extractStridedSlice S64x256 ![256, 0] (m ((c : Thread nD τ).loc main_arg4)) slices_S320x256_S64x256_256_0 := by
  dsimp only [V, V0]
  simp only [hostOps0, hostOps0_1, hostOps0_2, List.flatten_cons, List.flatten_nil, List.append_nil, List.cons_append, List.nil_append]
  after_results_simp <;> rfl
set_option maxRecDepth 8192 in
theorem V_v45 (c : Dev nD) : V m c main_v45 = extractStridedSlice S128x256 ![0, 0] (m ((c : Thread nD τ).loc main_arg8)) slices_S320x256_S128x256_0_0 := by
  dsimp only [V, V0]
  simp only [hostOps0, hostOps0_1, hostOps0_2, List.flatten_cons, List.flatten_nil, List.append_nil, List.cons_append, List.nil_append]
  after_results_simp <;> rfl
set_option maxRecDepth 8192 in
theorem V_v46 (c : Dev nD) : V m c main_v46 = extractStridedSlice S128x256 ![128, 0] (m ((c : Thread nD τ).loc main_arg8)) slices_S320x256_S128x256_128_0 := by
  dsimp only [V, V0]
  simp only [hostOps0, hostOps0_1, hostOps0_2, List.flatten_cons, List.flatten_nil, List.append_nil, List.cons_append, List.nil_append]
  after_results_simp <;> rfl
set_option maxRecDepth 8192 in
theorem V_v47 (c : Dev nD) : V m c main_v47 = extractStridedSlice S64x256 ![256, 0] (m ((c : Thread nD τ).loc main_arg8)) slices_S320x256_S64x256_256_0 := by
  dsimp only [V, V0]
  simp only [hostOps0, hostOps0_1, hostOps0_2, List.flatten_cons, List.flatten_nil, List.append_nil, List.cons_append, List.nil_append]
  after_results_simp <;> rfl
set_option maxRecDepth 8192 in
theorem V_v48 (c : Dev nD) : V m c main_v48 = shapeCast S1x256 (m ((c : Thread nD τ).loc main_arg5)) shapeCasts_S256_S1x256 := by
  dsimp only [V, V0]
  simp only [hostOps0, hostOps0_1, hostOps0_2, List.flatten_cons, List.flatten_nil, List.append_nil, List.cons_append, List.nil_append]
  after_results_simp <;> rfl
set_option maxRecDepth 8192 in
theorem V_v49 (c : Dev nD) : V m c main_v49 = shapeCast S1x128 (m ((c : Thread nD τ).loc main_arg7)) shapeCasts_S128_S1x128 := by
  dsimp only [V, V0]
  simp only [hostOps0, hostOps0_1, hostOps0_2, List.flatten_cons, List.flatten_nil, List.append_nil, List.cons_append, List.nil_append]
  after_results_simp <;> rfl
set_option maxRecDepth 8192 in
theorem V_v50 (c : Dev nD) : V m c main_v50 = shapeCast S1x256 (m ((c : Thread nD τ).loc main_arg9)) shapeCasts_S256_S1x256 := by
  dsimp only [V, V0]
  simp only [hostOps0, hostOps0_1, hostOps0_2, List.flatten_cons, List.flatten_nil, List.append_nil, List.cons_append, List.nil_append]
  after_results_simp <;> rfl

/-- Band 0 of the message network's first weight matrix. -/
theorem V_v42_apply (c : Dev nD) (i : Fin 128) (k : Fin 256) : (V m c main_v42 : S128x256.Idx → EReal) (ix2 i k) = a4 m c (ix2 (band0 i) k) := by
  rw [V_v42]; exact slice2_axis0_apply 0 _ _ i k (band0 i) (Nat.zero_add _).symm
/-- Band 1 of the message network's first weight matrix. -/
theorem V_v43_apply (c : Dev nD) (i : Fin 128) (k : Fin 256) : (V m c main_v43 : S128x256.Idx → EReal) (ix2 i k) = a4 m c (ix2 (band1 i) k) := by
  rw [V_v43]; exact slice2_axis0_apply 128 _ _ i k (band1 i) rfl
/-- Band 2 of the message network's first weight matrix. -/
theorem V_v44_apply (c : Dev nD) (i : Fin 64) (k : Fin 256) : (V m c main_v44 : S64x256.Idx → EReal) (ix2 i k) = a4 m c (ix2 (band2 i) k) := by
  rw [V_v44]; exact slice2_axis0_apply 256 _ _ i k (band2 i) rfl
/-- Band 0 of the coordinate network's first weight matrix. -/
theorem V_v45_apply (c : Dev nD) (i : Fin 128) (k : Fin 256) : (V m c main_v45 : S128x256.Idx → EReal) (ix2 i k) = a8 m c (ix2 (band0 i) k) := by
  rw [V_v45]; exact slice2_axis0_apply 0 _ _ i k (band0 i) (Nat.zero_add _).symm
/-- Band 1 of the coordinate network's first weight matrix. -/
theorem V_v46_apply (c : Dev nD) (i : Fin 128) (k : Fin 256) : (V m c main_v46 : S128x256.Idx → EReal) (ix2 i k) = a8 m c (ix2 (band1 i) k) := by
  rw [V_v46]; exact slice2_axis0_apply 128 _ _ i k (band1 i) rfl
/-- Band 2 of the coordinate network's first weight matrix. -/
theorem V_v47_apply (c : Dev nD) (i : Fin 64) (k : Fin 256) : (V m c main_v47 : S64x256.Idx → EReal) (ix2 i k) = a8 m c (ix2 (band2 i) k) := by
  rw [V_v47]; exact slice2_axis0_apply 256 _ _ i k (band2 i) rfl
/-- The message network's first bias as a one-row matrix. -/
theorem V_v48_apply (c : Dev nD) (k : Fin 256) : (V m c main_v48 : S1x256.Idx → EReal) (ix2 (0 : Fin 1) k) = a5 m c (ix1 k) := by
  rw [V_v48]; exact shapeCast_a_1a_apply _ _ 0 k
/-- The message network's second bias as a one-row matrix. -/
theorem V_v49_apply (c : Dev nD) (j : Fin 128) : (V m c main_v49 : S1x128.Idx → EReal) (ix2 (0 : Fin 1) j) = a7 m c (ix1 j) := by
  rw [V_v49]; exact shapeCast_a_1a_apply _ _ 0 j
/-- The coordinate network's first bias as a one-row matrix. -/
theorem V_v50_apply (c : Dev nD) (k : Fin 256) : (V m c main_v50 : S1x256.Idx → EReal) (ix2 (0 : Fin 1) k) = a9 m c (ix1 k) := by
  rw [V_v50]; exact shapeCast_a_1a_apply _ _ 0 k

end Cert.KernelIdeal.HostPre

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelPay.lean ====
/-
  What the kernel's body stores, read at an index, at the ideal instance (every value an extended real).

  The body holds a block of 2048 edges. For the message it multiplies the two gathered node rows and the edge's
  attribute row each with its own band of the first weight matrix, adds the three products and the bias row, applies
  x · σ(x), multiplies with the second weight matrix and adds its bias row: at row `p`, unit `j` that is `msg3` of
  row `p` of the three inputs (`pay_m_apply`). For the coordinate update it does the same with a second set of
  first-layer weights and a single output column (`coord3`, no bias), and multiplies that weight with the difference
  of the two gathered coordinate rows divided by its length clamped from below: at row `p`, coordinate `d` that is
  `dirw` (`pay_w_apply`).

  The steps: each matrix product into a zero accumulator read at (p, j) is the sum over the one contracted index of
  the products of the operands' elements (the four axis facts of each record of dimension numbers, then
  `matmul_plain_apply`); the narrowing format changes and the casts to the same shape are the identity on extended
  reals; a [1, b] row broadcast over the rows reads its one row, an [a, 1] column broadcast over the columns reads
  its one column; the sum over the three coordinates of a row is a `Fin 3` sum; the rest is elementwise.
-/
import proofs.«181356_j2319282340045_1_alg».proof.Proof.Gen.KernelIdeal.Skeleton
import proofs.«181356_j2319282340045_1_alg».proof.Proof.Spec
import proofs.«181356_j2319282340045_1_alg».proof.Proof.LibPlainDot

noncomputable section

namespace Cert.KernelIdeal.Pay

open Idealize.ShloMosaic Idealize.ShloMosaic.ValueIdx Cert.KernelIdeal Cert.KernelIdeal.Gen Cert.Egnn

/-! ## The four matrix products, read at an index

For each record of dimension numbers: the output's row comes from the left operand's axis 0, its column from the right
operand's axis 1, and the one contracted index sits on the left's axis 1 and the right's axis 0. -/

theorem dotNode_lhs0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem dotNode_lhs1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem dotNode_rhs0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem dotNode_rhs1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

theorem dotNode_apply (l : FVec Ideal S2048x128 .bf16) (r : FVec Ideal S128x256 .bf16) (p : Fin 2048) (j : Fin 256) :
    matmul dot_S2048x128_S128x256_S2048x256_1_0_0_1_n_n none l r (constant (F := Ideal) S2048x256 .f32 0x00000000#32) (ix2 p j)
      = ∑ k : Fin 128, l (ix2 p k) * r (ix2 k j) :=
  Cert.Lib.matmul_plain_apply dot_S2048x128_S128x256_S2048x256_1_0_0_1_n_n rfl rfl dotNode_lhs0 dotNode_lhs1 dotNode_rhs0 dotNode_rhs1 none l r p j

theorem dotEdge_lhs0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem dotEdge_lhs1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem dotEdge_rhs0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem dotEdge_rhs1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

theorem dotEdge_apply (l : FVec Ideal S2048x64 .bf16) (r : FVec Ideal S64x256 .bf16) (p : Fin 2048) (j : Fin 256) :
    matmul dot_S2048x64_S64x256_S2048x256_1_0_0_1_n_n none l r (constant (F := Ideal) S2048x256 .f32 0x00000000#32) (ix2 p j)
      = ∑ k : Fin 64, l (ix2 p k) * r (ix2 k j) :=
  Cert.Lib.matmul_plain_apply dot_S2048x64_S64x256_S2048x256_1_0_0_1_n_n rfl rfl dotEdge_lhs0 dotEdge_lhs1 dotEdge_rhs0 dotEdge_rhs1 none l r p j

theorem dotMsg_lhs0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem dotMsg_lhs1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem dotMsg_rhs0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem dotMsg_rhs1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

theorem dotMsg_apply (l : FVec Ideal S2048x256 .bf16) (r : FVec Ideal S256x128 .bf16) (p : Fin 2048) (j : Fin 128) :
    matmul dot_S2048x256_S256x128_S2048x128_1_0_0_1_n_n none l r (constant (F := Ideal) S2048x128 .f32 0x00000000#32) (ix2 p j)
      = ∑ k : Fin 256, l (ix2 p k) * r (ix2 k j) :=
  Cert.Lib.matmul_plain_apply dot_S2048x256_S256x128_S2048x128_1_0_0_1_n_n rfl rfl dotMsg_lhs0 dotMsg_lhs1 dotMsg_rhs0 dotMsg_rhs1 none l r p j

theorem dotCoord_lhs0 (i : S2048x1.Idx) (q : dot_S2048x256_S256x1_S2048x1_1_0_0_1_n_n.contr.Idx) :
    (dot_S2048x256_S256x1_S2048x1_1_0_0_1_n_n.lhsIdx i q 0).val = (i 0).val := by
  unfold DotDims.lhsIdx
  rw [dif_neg (show ¬(0 : Fin S2048x256.rank) ∈ dot_S2048x256_S256x1_S2048x1_1_0_0_1_n_n.lhsBatch by decide), dif_pos (show (0 : Fin S2048x256.rank) ∈ dot_S2048x256_S256x1_S2048x1_1_0_0_1_n_n.lhsNonContracting by decide)]
  rfl
theorem dotCoord_lhs1 (i : S2048x1.Idx) (q : dot_S2048x256_S256x1_S2048x1_1_0_0_1_n_n.contr.Idx) :
    (dot_S2048x256_S256x1_S2048x1_1_0_0_1_n_n.lhsIdx i q 1).val = (q ⟨0, by decide⟩).val :=
  dot_S2048x256_S256x1_S2048x1_1_0_0_1_n_n.lhsIdx_val_of_single rfl i q
theorem dotCoord_rhs0 (i : S2048x1.Idx) (q : dot_S2048x256_S256x1_S2048x1_1_0_0_1_n_n.contr.Idx) :
    (dot_S2048x256_S256x1_S2048x1_1_0_0_1_n_n.rhsIdx i q 0).val = (q ⟨0, by decide⟩).val :=
  dot_S2048x256_S256x1_S2048x1_1_0_0_1_n_n.rhsIdx_val_of_single rfl i q
theorem dotCoord_rhs1 (i : S2048x1.Idx) (q : dot_S2048x256_S256x1_S2048x1_1_0_0_1_n_n.contr.Idx) :
    (dot_S2048x256_S256x1_S2048x1_1_0_0_1_n_n.rhsIdx i q 1).val = (i 1).val := by
  unfold DotDims.rhsIdx
  rw [dif_neg (show ¬(1 : Fin S256x1.rank) ∈ dot_S2048x256_S256x1_S2048x1_1_0_0_1_n_n.rhsBatch by decide), dif_pos (show (1 : Fin S256x1.rank) ∈ dot_S2048x256_S256x1_S2048x1_1_0_0_1_n_n.rhsNonContracting by decide)]
  rfl

theorem dotCoord_apply (l : FVec Ideal S2048x256 .bf16) (r : FVec Ideal S256x1 .bf16) (p : Fin 2048) (j : Fin 1) :
    matmul dot_S2048x256_S256x1_S2048x1_1_0_0_1_n_n none l r (constant (F := Ideal) S2048x1 .f32 0x00000000#32) (ix2 p j)
      = ∑ k : Fin 256, l (ix2 p k) * r (ix2 k j) :=
  Cert.Lib.matmul_plain_apply dot_S2048x256_S256x1_S2048x1_1_0_0_1_n_n rfl rfl dotCoord_lhs0 dotCoord_lhs1 dotCoord_rhs0 dotCoord_rhs1 none l r p j

/-! ## The hidden layer and its activation -/

/-- The activation of a block, narrowed, read at an index: x · σ(x) of the block's element there. -/
theorem act_apply {s : Shape} (h : FVec Ideal s .f32) (hb : FTy.bits .bf16 < FTy.bits .f32) (i : s.Idx) :
    (truncf .bf16 (mulf h (logistic h)) hb : FVec Ideal s .bf16) i = silu (h i) := rfl

/-- The hidden pre-activation of row `p` at unit `k`: the three partial products, added, plus the bias row. -/
theorem hidden_apply (a b : FVec Ideal S2048x128 .bf16) (c : FVec Ideal S2048x64 .bf16) (Ws Wd : FVec Ideal S128x256 .bf16)
    (We : FVec Ideal S64x256 .bf16) (bias : FVec Ideal S1x256 .f32) (p : Fin 2048) (k : Fin 256) :
    addf (addf (addf (matmul dot_S2048x128_S128x256_S2048x256_1_0_0_1_n_n none a Ws (constant (F := Ideal) S2048x256 .f32 0x00000000#32))
          (matmul dot_S2048x128_S128x256_S2048x256_1_0_0_1_n_n none b Wd (constant (F := Ideal) S2048x256 .f32 0x00000000#32)))
        (matmul dot_S2048x64_S64x256_S2048x256_1_0_0_1_n_n none c We (constant (F := Ideal) S2048x256 .f32 0x00000000#32)))
      (broadcastTo S2048x256 bias broadcasts_S1x256_S2048x256) (ix2 p k)
      = hidden3 (fun i => a (ix2 p i)) (fun i => b (ix2 p i)) (fun i => c (ix2 p i))
          (fun i k => Ws (ix2 i k)) (fun i k => Wd (ix2 i k)) (fun i k => We (ix2 i k)) (fun k => bias (ix2 (0 : Fin 1) k)) k := by
  rw [addf_apply, addf_apply, addf_apply, dotNode_apply, dotNode_apply, dotEdge_apply, broadcastTo_1b_ab_apply]
  rfl

/-- The message block at row `p`, unit `j`. -/
theorem pay_m_apply (x0 x1 : Vec Ideal S2048x128 .f32) (x2 : Vec Ideal S2048x64 .f32) (x5 x6 : Vec Ideal S128x256 .f32)
    (x7 : Vec Ideal S64x256 .f32) (x8 : Vec Ideal S1x256 .f32) (x9 : Vec Ideal S256x128 .f32) (x10 : Vec Ideal S1x128 .f32)
    (p : Fin 2048) (j : Fin 128) :
    k0_pay14 (F := Ideal) (k0_pay2 x0) (k0_pay3 x1) (k0_pay4 x2) (k0_pay5 x5) (k0_pay6 x6) (k0_pay7 x7) (k0_pay8 x8) (k0_pay9 x9) (k0_pay10 x10) (ix2 p j)
      = msg3 (fun i => x0 (ix2 p i)) (fun i => x1 (ix2 p i)) (fun i => x2 (ix2 p i))
          (fun i k => x5 (ix2 i k)) (fun i k => x6 (ix2 i k)) (fun i k => x7 (ix2 i k)) (fun k => x8 (ix2 (0 : Fin 1) k))
          (fun k j => x9 (ix2 k j)) (fun j => x10 (ix2 (0 : Fin 1) j)) j := by
  unfold k0_pay14 k0_pay2 k0_pay3 k0_pay4 k0_pay5 k0_pay6 k0_pay7 k0_pay8 k0_pay9 k0_pay10 msg3
  simp only [shapeCast_self]
  rw [addf_apply, dotMsg_apply, broadcastTo_1b_ab_apply]
  refine congrArg₂ (· + ·) (Finset.sum_congr rfl fun k _ => ?_) rfl
  rw [act_apply, truncf_apply, hidden_apply]
  rfl

/-! ## The coordinate weight, the direction and its clamped length -/

/-- The sum over the three coordinates of a row of a [2048, 3] block. -/
theorem rowsum3_apply (v : FVec Ideal S2048x3 .f32) (p : Fin 2048) :
    multiReduction (F := Ideal) .add [1] S2048 v 0x00000000#32 reduces_S2048x3_S2048 (.inl rfl) rfl (ix1 p)
      = ∑ k : Fin 3, v (ix2 p k) := by
  refine (Ideal.multiReduction_add_single v _ reduces_S2048x3_S2048 (.inl rfl) rfl (ix1 p)).trans ?_
  refine Finset.sum_congr rfl fun k _ => congrArg v ?_
  funext a
  match a with
  | ⟨0, _⟩ => exact Fin.ext rfl
  | ⟨1, _⟩ => exact Fin.ext rfl

/-- The coordinate weight of row `p`: the activated hidden row against the one weight column. -/
theorem coordw_apply (x0 x1 : Vec Ideal S2048x128 .f32) (x2 : Vec Ideal S2048x64 .f32)
    (x11 x12 : Vec Ideal S128x256 .f32) (x13 : Vec Ideal S64x256 .f32) (x14 : Vec Ideal S1x256 .f32) (x15 : Vec Ideal S256x1 .f32)
    (p : Fin 2048) :
    k0_pay15 (F := Ideal) (k0_pay2 x0) (k0_pay3 x1) (k0_pay4 x2) (k0_pay11 x11) (k0_pay12 x12) (k0_pay13 x13) x14 x15 (ix2 p (0 : Fin 1))
      = coord3 (fun i => x0 (ix2 p i)) (fun i => x1 (ix2 p i)) (fun i => x2 (ix2 p i))
          (fun i k => x11 (ix2 i k)) (fun i k => x12 (ix2 i k)) (fun i k => x13 (ix2 i k)) (fun k => x14 (ix2 (0 : Fin 1) k))
          (fun k => x15 (ix2 k (0 : Fin 1))) := by
  unfold k0_pay15 k0_pay2 k0_pay3 k0_pay4 k0_pay11 k0_pay12 k0_pay13 coord3
  simp only [shapeCast_self]
  rw [dotCoord_apply]
  refine Finset.sum_congr rfl fun k _ => ?_
  rw [act_apply, truncf_apply, hidden_apply]
  rfl

/-- The coordinate difference of row `p` at coordinate `d`. -/
theorem dir_apply (x3 x4 : Vec Ideal S2048x3 .f32) (p : Fin 2048) (d : Fin 3) :
    k0_pay16 (F := Ideal) x3 x4 (ix2 p d) = x3 (ix2 p d) - x4 (ix2 p d) := by
  unfold k0_pay16
  simp only [shapeCast_self]
  rfl

/-- The clamped length of the coordinate difference of row `p`, the same at every coordinate `d`. -/
theorem norm_apply (x3 x4 : Vec Ideal S2048x3 .f32) (p : Fin 2048) (d : Fin 3) :
    k0_pay17 (F := Ideal) x3 x4 (ix2 p d)
      = max (Ideal.sqrt (∑ k : Fin 3, (x3 (ix2 p k) - x4 (ix2 p k)) * (x3 (ix2 p k) - x4 (ix2 p k))))
          (Ideal.ofBits .f32 0x322BCC77#32) := by
  unfold k0_pay17
  dsimp only
  rw [Cert.Lib.broadcastTo_a1_ab_apply, maximumf_apply]
  refine congrArg₂ max ?_ rfl
  show Ideal.sqrt (shapeCast S2048x1 _ _ (ix2 p (0 : Fin 1))) = _
  rw [Cert.Lib.shapeCast_a_a1_apply, rowsum3_apply]
  refine congrArg Ideal.sqrt (Finset.sum_congr rfl fun k _ => ?_)
  rw [mulf_apply, dir_apply]

/-- The weighted-direction block at row `p`, coordinate `d`. -/
theorem pay_w_apply (x0 x1 : Vec Ideal S2048x128 .f32) (x2 : Vec Ideal S2048x64 .f32) (x3 x4 : Vec Ideal S2048x3 .f32)
    (x11 x12 : Vec Ideal S128x256 .f32) (x13 : Vec Ideal S64x256 .f32) (x14 : Vec Ideal S1x256 .f32) (x15 : Vec Ideal S256x1 .f32)
    (p : Fin 2048) (d : Fin 3) :
    k0_pay1 (F := Ideal) (k0_pay15 (k0_pay2 x0) (k0_pay3 x1) (k0_pay4 x2) (k0_pay11 x11) (k0_pay12 x12) (k0_pay13 x13) x14 x15)
        (k0_pay16 x3 x4) (k0_pay17 x3 x4) (ix2 p d)
      = dirw (coord3 (fun i => x0 (ix2 p i)) (fun i => x1 (ix2 p i)) (fun i => x2 (ix2 p i))
          (fun i k => x11 (ix2 i k)) (fun i k => x12 (ix2 i k)) (fun i k => x13 (ix2 i k)) (fun k => x14 (ix2 (0 : Fin 1) k))
          (fun k => x15 (ix2 k (0 : Fin 1))))
          (fun d => x3 (ix2 p d)) (fun d => x4 (ix2 p d)) d := by
  unfold k0_pay1 dirw
  dsimp only
  rw [mulf_apply, divf_apply, Cert.Lib.broadcastTo_a1_ab_apply, coordw_apply, dir_apply, norm_apply]

end Cert.KernelIdeal.Pay

end
-- ==== Proof.RefRead.lean ====
/-
  What the reference computes per edge, read at an index, at the ideal instance.

  The reference joins, for every edge `e`, the two gathered node rows (128 entries each) and the embedded edge
  attribute (64 entries) into one row of 320 entries, and feeds that row to two small networks:

  * the message network: hidden = row · W₁ + b₁ (256 units), activation x · σ(x), then · W₂ + b₂ (128 outputs);
  * the coordinate network: hidden = row · V₁ + c₁ (256 units), the same activation, then · v₂ (one output, no bias),
    whose scalar weighs the unit direction (xs − xd) / max(‖xs − xd‖, ε) of the edge.

  Read at one index, every operation of the reference is an operation on extended reals: a broadcast reads its
  operand at the matching coordinates, a contraction is the finite sum of the products over the contracted axis, and
  the reduction behind the norm is the sum of the three squared differences (its initial value is the literal 0).
  The joined row read in its band [0, 128), [128, 256) or [256, 320) is the first, the second or the third piece;
  a sum over the 320 joined entries is therefore the sum of the three band sums (`hidden1_eq_hidden3`), which is
  how the specification writes the hidden layer. The activation is spelled 1 / (1 + e⁻ˣ) with the literal 1.0
  (`silu_expanded`). The two gathered node rows, the embedded attribute row and the two gathered coordinate rows
  stay as the reference names them: the statements below are relative to them.
-/
import proofs.«181356_j2319282340045_1_alg».proof.Proof.Gen.ReferenceIdeal.Read
import proofs.«181356_j2319282340045_1_alg».proof.Proof.Spec
import Idealize.ShloMosaic.Lib.ValueLayout

noncomputable section

namespace Cert.ReferenceIdeal.RefValue

open Idealize.ShloMosaic Idealize.ShloMosaic.ValueIdx Cert.ReferenceIdeal Cert.ReferenceIdeal.Read Cert.Egnn

/-! ## Three pieces joined along the second axis, read band by band -/

section Join
variable {α : Type} (xa xb : S524288x128.Idx → α) (xc : S524288x64.Idx → α)
  (h : Shape.Concatenates [S524288x128, S524288x128, S524288x64] S524288x320 1)

/-- Columns [0, 128) of the joined array are the first piece. -/
theorem join_band0 (e : Fin 524288) (i : Fin 128) :
    concatenate S524288x320 1 [⟨S524288x128, xa⟩, ⟨S524288x128, xb⟩, ⟨S524288x64, xc⟩] h (ix2 e (band0 i)) = xa (ix2 e i) := by
  refine concatenate_apply_piece (1 : Fin S524288x320.rank) [⟨S524288x128, xa⟩, ⟨S524288x128, xb⟩, ⟨S524288x64, xc⟩] h
    (ix2 e (band0 i)) 0 (by simp) S524288x128 xa rfl rfl 0 rfl (ix2 e i) ?_ ?_
  · intro b hb
    match b with
    | ⟨0, _⟩ => rfl
    | ⟨1, _⟩ => exact absurd rfl hb
  · show 0 + i.val = i.val
    omega

/-- Columns [128, 256) of the joined array are the second piece. -/
theorem join_band1 (e : Fin 524288) (i : Fin 128) :
    concatenate S524288x320 1 [⟨S524288x128, xa⟩, ⟨S524288x128, xb⟩, ⟨S524288x64, xc⟩] h (ix2 e (band1 i)) = xb (ix2 e i) := by
  refine concatenate_apply_piece (1 : Fin S524288x320.rank) [⟨S524288x128, xa⟩, ⟨S524288x128, xb⟩, ⟨S524288x64, xc⟩] h
    (ix2 e (band1 i)) 1 (by simp) S524288x128 xb rfl rfl 128 rfl (ix2 e i) ?_ ?_
  · intro b hb
    match b with
    | ⟨0, _⟩ => rfl
    | ⟨1, _⟩ => exact absurd rfl hb
  · show 128 + i.val = 128 + i.val
    rfl

/-- Columns [256, 320) of the joined array are the third piece. -/
theorem join_band2 (e : Fin 524288) (i : Fin 64) :
    concatenate S524288x320 1 [⟨S524288x128, xa⟩, ⟨S524288x128, xb⟩, ⟨S524288x64, xc⟩] h (ix2 e (band2 i)) = xc (ix2 e i) := by
  refine concatenate_apply_piece (1 : Fin S524288x320.rank) [⟨S524288x128, xa⟩, ⟨S524288x128, xb⟩, ⟨S524288x64, xc⟩] h
    (ix2 e (band2 i)) 2 (by simp) S524288x64 xc rfl rfl 256 rfl (ix2 e i) ?_ ?_
  · intro b hb
    match b with
    | ⟨0, _⟩ => rfl
    | ⟨1, _⟩ => exact absurd rfl hb
  · show 256 + i.val = 256 + i.val
    rfl

end Join

variable (x0 : (⟨S32768x128, .f32⟩ : BufTy).Contents (Elt Ideal)) (x1 : (⟨S32768x3, .f32⟩ : BufTy).Contents (Elt Ideal))
  (x2 : (⟨S2x524288, .i32⟩ : BufTy).Contents (Elt Ideal)) (x3 : (⟨S524288, .f32⟩ : BufTy).Contents (Elt Ideal))
  (x4 : (⟨S320x256, .f32⟩ : BufTy).Contents (Elt Ideal)) (x5 : (⟨S256, .f32⟩ : BufTy).Contents (Elt Ideal))
  (x6 : (⟨S256x128, .f32⟩ : BufTy).Contents (Elt Ideal)) (x7 : (⟨S128, .f32⟩ : BufTy).Contents (Elt Ideal))
  (x8 : (⟨S320x256, .f32⟩ : BufTy).Contents (Elt Ideal)) (x9 : (⟨S256, .f32⟩ : BufTy).Contents (Elt Ideal))
  (x10 : (⟨S256x1, .f32⟩ : BufTy).Contents (Elt Ideal)) (x11 : (⟨S1x64, .f32⟩ : BufTy).Contents (Elt Ideal))
  (x12 : (⟨S64, .f32⟩ : BufTy).Contents (Elt Ideal)) (x13 : (⟨S64x64, .f32⟩ : BufTy).Contents (Elt Ideal))
  (x14 : (⟨S64, .f32⟩ : BufTy).Contents (Elt Ideal))

/-! ## The joined row of an edge -/

/-- Entries [0, 128) of the joined row are the first gathered node row. -/
theorem joined_band0 (e : Fin 524288) (i : Fin 128) :
    val_main_v28 (F := Ideal) x0 x2 x3 x11 x12 x13 x14 (ix2 e (band0 i)) = val_main_v20 (F := Ideal) x0 x2 (ix2 e i) := by
  unfold val_main_v28
  exact join_band0 _ _ _ _ e i

/-- Entries [128, 256) of the joined row are the second gathered node row. -/
theorem joined_band1 (e : Fin 524288) (i : Fin 128) :
    val_main_v28 (F := Ideal) x0 x2 x3 x11 x12 x13 x14 (ix2 e (band1 i)) = val_main_v27 (F := Ideal) x0 x2 (ix2 e i) := by
  unfold val_main_v28
  exact join_band1 _ _ _ _ e i

/-- Entries [256, 320) of the joined row are the embedded edge attribute. -/
theorem joined_band2 (e : Fin 524288) (i : Fin 64) :
    val_main_v28 (F := Ideal) x0 x2 x3 x11 x12 x13 x14 (ix2 e (band2 i)) = val_main_v13 (F := Ideal) x3 x11 x12 x13 x14 (ix2 e i) := by
  unfold val_main_v28
  exact join_band2 _ _ _ _ e i

/-- The joined row times a 320 × 256 matrix plus a bias, at unit `k`, is the three-band hidden pre-activation. -/
theorem joined_hidden (W : (⟨S320x256, .f32⟩ : BufTy).Contents (Elt Ideal)) (b : (⟨S256, .f32⟩ : BufTy).Contents (Elt Ideal))
    (e : Fin 524288) (k : Fin 256) :
    (∑ i : Fin 320, val_main_v28 (F := Ideal) x0 x2 x3 x11 x12 x13 x14 (ix2 e i) * W (ix2 i k)) + b (ix1 k)
      = hidden3 (fun i => val_main_v20 (F := Ideal) x0 x2 (ix2 e i)) (fun i => val_main_v27 (F := Ideal) x0 x2 (ix2 e i))
          (fun i => val_main_v13 (F := Ideal) x3 x11 x12 x13 x14 (ix2 e i))
          (fun i k => W (ix2 (band0 i) k)) (fun i k => W (ix2 (band1 i) k)) (fun i k => W (ix2 (band2 i) k))
          (fun k => b (ix1 k)) k := by
  have h := hidden1_eq_hidden3 (fun i => val_main_v28 (F := Ideal) x0 x2 x3 x11 x12 x13 x14 (ix2 e i)) (fun i k => W (ix2 i k)) (fun k => b (ix1 k)) k
  simp only [joined_band0, joined_band1, joined_band2] at h
  exact h

/-! ## The message network -/

/-- The hidden pre-activation of the message network at edge `e`, unit `k`. -/
theorem msg_hidden_read (e : Fin 524288) (k : Fin 256) :
    val_main_v32 (F := Ideal) x0 x2 x3 x4 x5 x11 x12 x13 x14 (ix2 e k)
      = hidden3 (fun i => val_main_v20 (F := Ideal) x0 x2 (ix2 e i)) (fun i => val_main_v27 (F := Ideal) x0 x2 (ix2 e i))
          (fun i => val_main_v13 (F := Ideal) x3 x11 x12 x13 x14 (ix2 e i))
          (fun i k => x4 (ix2 (band0 i) k)) (fun i k => x4 (ix2 (band1 i) k)) (fun i k => x4 (ix2 (band2 i) k))
          (fun k => x5 (ix1 k)) k := by
  rw [val_main_v32_apply, val_main_v29_apply, val_main_v31_apply, val_main_v30_apply, Ideal.addf_def]
  refine Eq.trans ?_ (joined_hidden x0 x2 x3 x11 x12 x13 x14 x4 x5 e k)
  refine congrArg₂ (· + ·) (Finset.sum_congr rfl fun i _ => ?_) ?_
  · have el : lidx_main_v29 (ix2 e k) i = ix2 e i := funext fun a => Fin.ext (by match a with | ⟨0, _⟩ => rfl | ⟨1, _⟩ => rfl)
    have er : ridx_main_v29 (ix2 e k) i = ix2 i k := funext fun a => Fin.ext (by match a with | ⟨0, _⟩ => rfl | ⟨1, _⟩ => rfl)
    rw [el, er]
  · exact congrArg x5 (funext fun a => Fin.ext (by match a with | ⟨0, _⟩ => rfl))

/-- The activated hidden unit of the message network: x · σ(x) of the pre-activation. -/
theorem msg_act_read (e : Fin 524288) (k : Fin 256) :
    val_main_v33 (F := Ideal) x0 x2 x3 x4 x5 x11 x12 x13 x14 (ix2 e k)
      = silu (val_main_v32 (F := Ideal) x0 x2 x3 x4 x5 x11 x12 x13 x14 (ix2 e k)) := by
  rw [val_main_v33_apply, val_main_call1_v5_apply, val_main_call1_v4_apply, val_main_call1_cst_0_apply,
    val_main_call1_v3_apply, val_main_call1_v2_apply, val_main_call1_cst_apply, val_main_call1_v1_apply,
    val_main_call1_v0_apply]
  exact silu_expanded _

/-- The reference's message array at edge `e`, unit `j`. -/
theorem ref_m_apply (e : Fin 524288) (j : Fin 128) :
    val_main_v37 (F := Ideal) x0 x2 x3 x4 x5 x6 x7 x11 x12 x13 x14 (ix2 e j)
      = msg3 (fun i => val_main_v20 (F := Ideal) x0 x2 (ix2 e i)) (fun i => val_main_v27 (F := Ideal) x0 x2 (ix2 e i))
          (fun i => val_main_v13 (F := Ideal) x3 x11 x12 x13 x14 (ix2 e i))
          (fun i k => x4 (ix2 (band0 i) k)) (fun i k => x4 (ix2 (band1 i) k)) (fun i k => x4 (ix2 (band2 i) k))
          (fun k => x5 (ix1 k)) (fun k j => x6 (ix2 k j)) (fun j => x7 (ix1 j)) j := by
  rw [val_main_v37_apply, val_main_v34_apply, val_main_v36_apply, val_main_v35_apply, Ideal.addf_def]
  unfold msg3
  refine congrArg₂ (· + ·) (Finset.sum_congr rfl fun k _ => ?_) ?_
  · have el : lidx_main_v34 (ix2 e j) k = ix2 e k := funext fun a => Fin.ext (by match a with | ⟨0, _⟩ => rfl | ⟨1, _⟩ => rfl)
    have er : ridx_main_v34 (ix2 e j) k = ix2 k j := funext fun a => Fin.ext (by match a with | ⟨0, _⟩ => rfl | ⟨1, _⟩ => rfl)
    rw [el, er, msg_act_read, msg_hidden_read]
  · exact congrArg x7 (funext fun a => Fin.ext (by match a with | ⟨0, _⟩ => rfl))

/-! ## The coordinate network -/

/-- The hidden pre-activation of the coordinate network at edge `e`, unit `k`. -/
theorem coord_hidden_read (e : Fin 524288) (k : Fin 256) :
    val_main_v44 (F := Ideal) x0 x2 x3 x8 x9 x11 x12 x13 x14 (ix2 e k)
      = hidden3 (fun i => val_main_v20 (F := Ideal) x0 x2 (ix2 e i)) (fun i => val_main_v27 (F := Ideal) x0 x2 (ix2 e i))
          (fun i => val_main_v13 (F := Ideal) x3 x11 x12 x13 x14 (ix2 e i))
          (fun i k => x8 (ix2 (band0 i) k)) (fun i k => x8 (ix2 (band1 i) k)) (fun i k => x8 (ix2 (band2 i) k))
          (fun k => x9 (ix1 k)) k := by
  rw [val_main_v44_apply, val_main_v41_apply, val_main_v43_apply, val_main_v42_apply, Ideal.addf_def]
  refine Eq.trans ?_ (joined_hidden x0 x2 x3 x11 x12 x13 x14 x8 x9 e k)
  refine congrArg₂ (· + ·) (Finset.sum_congr rfl fun i _ => ?_) ?_
  · have el : lidx_main_v41 (ix2 e k) i = ix2 e i := funext fun a => Fin.ext (by match a with | ⟨0, _⟩ => rfl | ⟨1, _⟩ => rfl)
    have er : ridx_main_v41 (ix2 e k) i = ix2 i k := funext fun a => Fin.ext (by match a with | ⟨0, _⟩ => rfl | ⟨1, _⟩ => rfl)
    rw [el, er]
  · exact congrArg x9 (funext fun a => Fin.ext (by match a with | ⟨0, _⟩ => rfl))

/-- The activated hidden unit of the coordinate network. -/
theorem coord_act_read (e : Fin 524288) (k : Fin 256) :
    val_main_v45 (F := Ideal) x0 x2 x3 x8 x9 x11 x12 x13 x14 (ix2 e k)
      = silu (val_main_v44 (F := Ideal) x0 x2 x3 x8 x9 x11 x12 x13 x14 (ix2 e k)) := by
  rw [val_main_v45_apply, val_main_call2_v5_apply, val_main_call2_v4_apply, val_main_call2_cst_0_apply,
    val_main_call2_v3_apply, val_main_call2_v2_apply, val_main_call2_cst_apply, val_main_call2_v1_apply,
    val_main_call2_v0_apply]
  exact silu_expanded _

/-- The coordinate weight of edge `e`: the activated hidden layer times the 256 × 1 output column. -/
theorem coord_weight_read (e : Fin 524288) :
    val_main_v46 (F := Ideal) x0 x2 x3 x8 x9 x10 x11 x12 x13 x14 (ix2 e (0 : Fin 1))
      = coord3 (fun i => val_main_v20 (F := Ideal) x0 x2 (ix2 e i)) (fun i => val_main_v27 (F := Ideal) x0 x2 (ix2 e i))
          (fun i => val_main_v13 (F := Ideal) x3 x11 x12 x13 x14 (ix2 e i))
          (fun i k => x8 (ix2 (band0 i) k)) (fun i k => x8 (ix2 (band1 i) k)) (fun i k => x8 (ix2 (band2 i) k))
          (fun k => x9 (ix1 k)) (fun k => x10 (ix2 k (0 : Fin 1))) := by
  rw [val_main_v46_apply]
  unfold coord3
  refine Finset.sum_congr rfl fun k _ => ?_
  have el : lidx_main_v46 (ix2 e (0 : Fin 1)) k = ix2 e k := funext fun a => Fin.ext (by match a with | ⟨0, _⟩ => rfl | ⟨1, _⟩ => rfl)
  have er : ridx_main_v46 (ix2 e (0 : Fin 1)) k = ix2 k (0 : Fin 1) := funext fun a => Fin.ext (by match a with | ⟨0, _⟩ => rfl | ⟨1, _⟩ => rfl)
  rw [el, er, coord_act_read, coord_hidden_read]

/-! ## The clamped length of an edge -/

/-- max(‖xs − xd‖, ε) of edge `e`: the square root of the sum of the three squared coordinate differences, clamped
    below by the literal ε. -/
theorem length_read (e : Fin 524288) :
    val_main_v64 (F := Ideal) x1 x2 (ix2 e (0 : Fin 1))
      = max (Ideal.sqrt (∑ k : Fin 3, (val_main_v53 (F := Ideal) x1 x2 (ix2 e k) - val_main_v60 (F := Ideal) x1 x2 (ix2 e k)) * (val_main_v53 (F := Ideal) x1 x2 (ix2 e k) - val_main_v60 (F := Ideal) x1 x2 (ix2 e k))))
          (Ideal.ofBits .f32 0x322BCC77#32) := by
  rw [val_main_v64_apply, val_main_v63_apply, val_main_cst_7_apply, val_main_v62_apply, val_main_call3_v2_apply,
    val_main_call3_v1_apply, val_main_call3_cst_apply,
    show FloatOps.ofBits (F := Ideal) .f32 0x00000000#32 = 0 from Ideal.ofBits_zero_f32, zero_add]
  refine congrArg (fun s => max (Ideal.sqrt s) (Ideal.ofBits .f32 0x322BCC77#32)) (Finset.sum_congr rfl fun k _ => ?_)
  have ei : idx_main_call3_v1 (idx_main_call3_v2 (ix2 e (0 : Fin 1))) k = ix2 e k := funext fun a => Fin.ext (by match a with | ⟨0, _⟩ => rfl | ⟨1, _⟩ => rfl)
  rw [ei]
  rfl

/-- The reference's weighted-direction array at edge `e`, coordinate `d`. -/
theorem ref_w_apply (e : Fin 524288) (d : Fin 3) :
    val_main_v68 (F := Ideal) x0 x1 x2 x3 x8 x9 x10 x11 x12 x13 x14 (ix2 e d)
      = dirw (coord3 (fun i => val_main_v20 (F := Ideal) x0 x2 (ix2 e i)) (fun i => val_main_v27 (F := Ideal) x0 x2 (ix2 e i))
          (fun i => val_main_v13 (F := Ideal) x3 x11 x12 x13 x14 (ix2 e i))
          (fun i k => x8 (ix2 (band0 i) k)) (fun i k => x8 (ix2 (band1 i) k)) (fun i k => x8 (ix2 (band2 i) k))
          (fun k => x9 (ix1 k)) (fun k => x10 (ix2 k (0 : Fin 1))))
          (fun d => val_main_v53 (F := Ideal) x1 x2 (ix2 e d)) (fun d => val_main_v60 (F := Ideal) x1 x2 (ix2 e d)) d := by
  have e67 : idx_main_v67 (ix2 e d) = ix2 e (0 : Fin 1) := funext fun a => Fin.ext (by match a with | ⟨0, _⟩ => rfl | ⟨1, _⟩ => rfl)
  have e65 : idx_main_v65 (ix2 e d) = ix2 e (0 : Fin 1) := funext fun a => Fin.ext (by match a with | ⟨0, _⟩ => rfl | ⟨1, _⟩ => rfl)
  rw [val_main_v68_apply, val_main_v67_apply, val_main_v66_apply, val_main_v65_apply, val_main_v61_apply,
    e67, e65, coord_weight_read, length_read]
  rfl

end Cert.ReferenceIdeal.RefValue

end
-- ==== Proof.Blocks.lean ====
/-
  From blocks to arrays: what the two output arrays of the kernel region hold after the run.

  The grid has 256 points; point t reads rows 2048·t … 2048·t + 2047 of the five per-edge arrays (window index (t, 0)) and
  the whole of every weight array (window index (0, 0), one block), and writes rows 2048·t … 2048·t + 2047 of the two
  outputs. Row p of point t's block is row 2048·t + p of the array (`erow`). What point t writes back is therefore the
  per-edge function of the rows it read, which is the reference's per-edge function of the same rows of the same
  arrays (the kernel's value at an index and the reference's value at an index are both `Cert.Egnn.msg3`, respectively
  `Cert.Egnn.dirw` of `Cert.Egnn.coord3`, of those rows); the 256 blocks tile the 524288 rows, so each output array ends
  holding the reference's array.
-/
import proofs.«181356_j2319282340045_1_alg».proof.Proof.Gen.KernelIdeal.Frame
import proofs.«181356_j2319282340045_1_alg».proof.Proof.HostPre
import proofs.«181356_j2319282340045_1_alg».proof.Proof.KernelPay
import proofs.«181356_j2319282340045_1_alg».proof.Proof.RefRead
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.HostPre Cert.Egnn

variable (m : (ℓ : Loc nD τ sig) → Buf (Elt Ideal) ℓ)

theorem hz : (![0, 0] : Fin 2 → Nat) = fun _ => 0 := funext fun a => by fin_cases a <;> rfl

/-- Row `p` of point `t`'s block is row 2048·t + p of a per-edge array. -/
def erow (t : Fin cfg0.N) (p : Fin 2048) : Fin 524288 :=
  ⟨2048 * t.val + p.val, by have := t.isLt; have h : cfg0.N = 256 := N_0; have := p.isLt; omega⟩

/-- The per-edge windows (five inputs, two outputs) sit at block (t, 0) at point t: decided over the grid. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

/-- The weight windows sit at block (0, 0) at every point: decided over the grid. -/
theorem idx_consts : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-! ## Where a block's index lies in its array

A block's coordinate on an axis is ALWAYS (the window's index there) × (the block's size there) + 1 × (the coordinate
inside the block). For a per-edge window that is (2048·t + p, i); for a weight window it is the index itself. -/

theorem emb0 (t : Fin cfg0.N) (p : Fin 2048) (i : Fin 128) :
    ((cfg0.win 0).blk t).view.emb (ix2 p i) = (ix2 (erow t p) i : S524288x128.Idx) := by
  have hi := (idx_rows t).1
  funext a; apply Fin.ext
  match a with
  | ⟨0, _⟩ => show win0_0.index t (0 : Fin 2) * 2048 + 1 * p.val = 2048 * t.val + p.val; rw [hi.1]; omega
  | ⟨1, _⟩ => show win0_0.index t (1 : Fin 2) * 128 + 1 * i.val = i.val; rw [hi.2]; omega
theorem emb1 (t : Fin cfg0.N) (p : Fin 2048) (i : Fin 128) :
    ((cfg0.win 1).blk t).view.emb (ix2 p i) = (ix2 (erow t p) i : S524288x128.Idx) := by
  have hi := (idx_rows t).2.1
  funext a; apply Fin.ext
  match a with
  | ⟨0, _⟩ => show win0_1.index t (0 : Fin 2) * 2048 + 1 * p.val = 2048 * t.val + p.val; rw [hi.1]; omega
  | ⟨1, _⟩ => show win0_1.index t (1 : Fin 2) * 128 + 1 * i.val = i.val; rw [hi.2]; omega
theorem emb2 (t : Fin cfg0.N) (p : Fin 2048) (i : Fin 64) :
    ((cfg0.win 2).blk t).view.emb (ix2 p i) = (ix2 (erow t p) i : S524288x64.Idx) := by
  have hi := (idx_rows t).2.2.1
  funext a; apply Fin.ext
  match a with
  | ⟨0, _⟩ => show win0_2.index t (0 : Fin 2) * 2048 + 1 * p.val = 2048 * t.val + p.val; rw [hi.1]; omega
  | ⟨1, _⟩ => show win0_2.index t (1 : Fin 2) * 64 + 1 * i.val = i.val; rw [hi.2]; omega
theorem emb3 (t : Fin cfg0.N) (p : Fin 2048) (i : Fin 3) :
    ((cfg0.win 3).blk t).view.emb (ix2 p i) = (ix2 (erow t p) i : S524288x3.Idx) := by
  have hi := (idx_rows t).2.2.2.1
  funext a; apply Fin.ext
  match a with
  | ⟨0, _⟩ => show win0_3.index t (0 : Fin 2) * 2048 + 1 * p.val = 2048 * t.val + p.val; rw [hi.1]; omega
  | ⟨1, _⟩ => show win0_3.index t (1 : Fin 2) * 3 + 1 * i.val = i.val; rw [hi.2]; omega
theorem emb4 (t : Fin cfg0.N) (p : Fin 2048) (i : Fin 3) :
    ((cfg0.win 4).blk t).view.emb (ix2 p i) = (ix2 (erow t p) i : S524288x3.Idx) := by
  have hi := (idx_rows t).2.2.2.2.1
  funext a; apply Fin.ext
  match a with
  | ⟨0, _⟩ => show win0_4.index t (0 : Fin 2) * 2048 + 1 * p.val = 2048 * t.val + p.val; rw [hi.1]; omega
  | ⟨1, _⟩ => show win0_4.index t (1 : Fin 2) * 3 + 1 * i.val = i.val; rw [hi.2]; omega
theorem emb16 (t : Fin cfg0.N) (p : Fin 2048) (i : Fin 128) :
    ((cfg0.win 16).blk t).view.emb (ix2 p i) = (ix2 (erow t p) i : S524288x128.Idx) := by
  have hi := (idx_rows t).2.2.2.2.2.1
  funext a; apply Fin.ext
  match a with
  | ⟨0, _⟩ => show win0_16.index t (0 : Fin 2) * 2048 + 1 * p.val = 2048 * t.val + p.val; rw [hi.1]; omega
  | ⟨1, _⟩ => show win0_16.index t (1 : Fin 2) * 128 + 1 * i.val = i.val; rw [hi.2]; omega
theorem emb17 (t : Fin cfg0.N) (p : Fin 2048) (i : Fin 3) :
    ((cfg0.win 17).blk t).view.emb (ix2 p i) = (ix2 (erow t p) i : S524288x3.Idx) := by
  have hi := (idx_rows t).2.2.2.2.2.2
  funext a; apply Fin.ext
  match a with
  | ⟨0, _⟩ => show win0_17.index t (0 : Fin 2) * 2048 + 1 * p.val = 2048 * t.val + p.val; rw [hi.1]; omega
  | ⟨1, _⟩ => show win0_17.index t (1 : Fin 2) * 3 + 1 * i.val = i.val; rw [hi.2]; omega

theorem emb5 (t : Fin cfg0.N) (y : S128x256.Idx) : ((cfg0.win 5).blk t).view.emb y = y := by
  have hi := (idx_consts t).1
  funext a; apply Fin.ext
  match a with
  | ⟨0, _⟩ => show win0_5.index t (0 : Fin 2) * 128 + 1 * (y 0).val = (y 0).val; rw [hi.1]; omega
  | ⟨1, _⟩ => show win0_5.index t (1 : Fin 2) * 256 + 1 * (y 1).val = (y 1).val; rw [hi.2]; omega
theorem emb6 (t : Fin cfg0.N) (y : S128x256.Idx) : ((cfg0.win 6).blk t).view.emb y = y := by
  have hi := (idx_consts t).2.1
  funext a; apply Fin.ext
  match a with
  | ⟨0, _⟩ => show win0_6.index t (0 : Fin 2) * 128 + 1 * (y 0).val = (y 0).val; rw [hi.1]; omega
  | ⟨1, _⟩ => show win0_6.index t (1 : Fin 2) * 256 + 1 * (y 1).val = (y 1).val; rw [hi.2]; omega
theorem emb7 (t : Fin cfg0.N) (y : S64x256.Idx) : ((cfg0.win 7).blk t).view.emb y = y := by
  have hi := (idx_consts t).2.2.1
  funext a; apply Fin.ext
  match a with
  | ⟨0, _⟩ => show win0_7.index t (0 : Fin 2) * 64 + 1 * (y 0).val = (y 0).val; rw [hi.1]; omega
  | ⟨1, _⟩ => show win0_7.index t (1 : Fin 2) * 256 + 1 * (y 1).val = (y 1).val; rw [hi.2]; omega
theorem emb8 (t : Fin cfg0.N) (y : S1x256.Idx) : ((cfg0.win 8).blk t).view.emb y = y := by
  have hi := (idx_consts t).2.2.2.1
  funext a; apply Fin.ext
  match a with
  | ⟨0, _⟩ => show win0_8.index t (0 : Fin 2) * 1 + 1 * (y 0).val = (y 0).val; rw [hi.1]; omega
  | ⟨1, _⟩ => show win0_8.index t (1 : Fin 2) * 256 + 1 * (y 1).val = (y 1).val; rw [hi.2]; omega
theorem emb9 (t : Fin cfg0.N) (y : S256x128.Idx) : ((cfg0.win 9).blk t).view.emb y = y := by
  have hi := (idx_consts t).2.2.2.2.1
  funext a; apply Fin.ext
  match a with
  | ⟨0, _⟩ => show win0_9.index t (0 : Fin 2) * 256 + 1 * (y 0).val = (y 0).val; rw [hi.1]; omega
  | ⟨1, _⟩ => show win0_9.index t (1 : Fin 2) * 128 + 1 * (y 1).val = (y 1).val; rw [hi.2]; omega
theorem emb10 (t : Fin cfg0.N) (y : S1x128.Idx) : ((cfg0.win 10).blk t).view.emb y = y := by
  have hi := (idx_consts t).2.2.2.2.2.1
  funext a; apply Fin.ext
  match a with
  | ⟨0, _⟩ => show win0_10.index t (0 : Fin 2) * 1 + 1 * (y 0).val = (y 0).val; rw [hi.1]; omega
  | ⟨1, _⟩ => show win0_10.index t (1 : Fin 2) * 128 + 1 * (y 1).val = (y 1).val; rw [hi.2]; omega
theorem emb11 (t : Fin cfg0.N) (y : S128x256.Idx) : ((cfg0.win 11).blk t).view.emb y = y := by
  have hi := (idx_consts t).2.2.2.2.2.2.1
  funext a; apply Fin.ext
  match a with
  | ⟨0, _⟩ => show win0_11.index t (0 : Fin 2) * 128 + 1 * (y 0).val = (y 0).val; rw [hi.1]; omega
  | ⟨1, _⟩ => show win0_11.index t (1 : Fin 2) * 256 + 1 * (y 1).val = (y 1).val; rw [hi.2]; omega
theorem emb12 (t : Fin cfg0.N) (y : S128x256.Idx) : ((cfg0.win 12).blk t).view.emb y = y := by
  have hi := (idx_consts t).2.2.2.2.2.2.2.1
  funext a; apply Fin.ext
  match a with
  | ⟨0, _⟩ => show win0_12.index t (0 : Fin 2) * 128 + 1 * (y 0).val = (y 0).val; rw [hi.1]; omega
  | ⟨1, _⟩ => show win0_12.index t (1 : Fin 2) * 256 + 1 * (y 1).val = (y 1).val; rw [hi.2]; omega
theorem emb13 (t : Fin cfg0.N) (y : S64x256.Idx) : ((cfg0.win 13).blk t).view.emb y = y := by
  have hi := (idx_consts t).2.2.2.2.2.2.2.2.1
  funext a; apply Fin.ext
  match a with
  | ⟨0, _⟩ => show win0_13.index t (0 : Fin 2) * 64 + 1 * (y 0).val = (y 0).val; rw [hi.1]; omega
  | ⟨1, _⟩ => show win0_13.index t (1 : Fin 2) * 256 + 1 * (y 1).val = (y 1).val; rw [hi.2]; omega
theorem emb14 (t : Fin cfg0.N) (y : S1x256.Idx) : ((cfg0.win 14).blk t).view.emb y = y := by
  have hi := (idx_consts t).2.2.2.2.2.2.2.2.2.1
  funext a; apply Fin.ext
  match a with
  | ⟨0, _⟩ => show win0_14.index t (0 : Fin 2) * 1 + 1 * (y 0).val = (y 0).val; rw [hi.1]; omega
  | ⟨1, _⟩ => show win0_14.index t (1 : Fin 2) * 256 + 1 * (y 1).val = (y 1).val; rw [hi.2]; omega
theorem emb15 (t : Fin cfg0.N) (y : S256x1.Idx) : ((cfg0.win 15).blk t).view.emb y = y := by
  have hi := (idx_consts t).2.2.2.2.2.2.2.2.2.2
  funext a; apply Fin.ext
  match a with
  | ⟨0, _⟩ => show win0_15.index t (0 : Fin 2) * 256 + 1 * (y 0).val = (y 0).val; rw [hi.1]; omega
  | ⟨1, _⟩ => show win0_15.index t (1 : Fin 2) * 1 + 1 * (y 1).val = (y 1).val; rw [hi.2]; omega

/-! ## The input blocks through their arrays

A block read is the array read at the block's index (`View.read_apply`); the per-edge arrays are the reference's stages of
the arguments, the weight arrays are bands of the arguments. -/

theorem read0 (c : Dev nD) (t : Fin cfg0.N) (p : Fin 2048) (i : Fin 128) :
    (iblk m c 0 t : S2048x128.Idx → EReal) (ix2 p i) = Cert.ReferenceIdeal.Read.val_main_v20 (F := Ideal) (a0 m c) (a2 m c) (ix2 (erow t p) i) := by
  unfold iblk
  rw [View.read_apply, emb0 t p i]
  exact congrFun (V_hsrc m c) _
theorem read1 (c : Dev nD) (t : Fin cfg0.N) (p : Fin 2048) (i : Fin 128) :
    (iblk m c 1 t : S2048x128.Idx → EReal) (ix2 p i) = Cert.ReferenceIdeal.Read.val_main_v27 (F := Ideal) (a0 m c) (a2 m c) (ix2 (erow t p) i) := by
  unfold iblk
  rw [View.read_apply, emb1 t p i]
  exact congrFun (V_hdst m c) _
theorem read2 (c : Dev nD) (t : Fin cfg0.N) (p : Fin 2048) (i : Fin 64) :
    (iblk m c 2 t : S2048x64.Idx → EReal) (ix2 p i)
      = Cert.ReferenceIdeal.Read.val_main_v13 (F := Ideal) (a3 m c) (a11 m c) (a12 m c) (a13 m c) (a14 m c) (ix2 (erow t p) i) := by
  unfold iblk
  rw [View.read_apply, emb2 t p i]
  exact congrFun (V_eattr m c) _
theorem read3 (c : Dev nD) (t : Fin cfg0.N) (p : Fin 2048) (d : Fin 3) :
    (iblk m c 3 t : S2048x3.Idx → EReal) (ix2 p d) = Cert.ReferenceIdeal.Read.val_main_v53 (F := Ideal) (a1 m c) (a2 m c) (ix2 (erow t p) d) := by
  unfold iblk
  rw [View.read_apply, emb3 t p d]
  exact congrFun (V_xsrc m c) _
theorem read4 (c : Dev nD) (t : Fin cfg0.N) (p : Fin 2048) (d : Fin 3) :
    (iblk m c 4 t : S2048x3.Idx → EReal) (ix2 p d) = Cert.ReferenceIdeal.Read.val_main_v60 (F := Ideal) (a1 m c) (a2 m c) (ix2 (erow t p) d) := by
  unfold iblk
  rw [View.read_apply, emb4 t p d]
  exact congrFun (V_xdst m c) _
theorem read5 (c : Dev nD) (t : Fin cfg0.N) (i : Fin 128) (k : Fin 256) :
    (iblk m c 5 t : S128x256.Idx → EReal) (ix2 i k) = a4 m c (ix2 (band0 i) k) := by
  unfold iblk
  rw [View.read_apply, emb5 t (ix2 i k)]
  exact V_v42_apply m c i k
theorem read6 (c : Dev nD) (t : Fin cfg0.N) (i : Fin 128) (k : Fin 256) :
    (iblk m c 6 t : S128x256.Idx → EReal) (ix2 i k) = a4 m c (ix2 (band1 i) k) := by
  unfold iblk
  rw [View.read_apply, emb6 t (ix2 i k)]
  exact V_v43_apply m c i k
theorem read7 (c : Dev nD) (t : Fin cfg0.N) (i : Fin 64) (k : Fin 256) :
    (iblk m c 7 t : S64x256.Idx → EReal) (ix2 i k) = a4 m c (ix2 (band2 i) k) := by
  unfold iblk
  rw [View.read_apply, emb7 t (ix2 i k)]
  exact V_v44_apply m c i k
theorem read8 (c : Dev nD) (t : Fin cfg0.N) (k : Fin 256) :
    (iblk m c 8 t : S1x256.Idx → EReal) (ix2 (0 : Fin 1) k) = a5 m c (ix1 k) := by
  unfold iblk
  rw [View.read_apply, emb8 t (ix2 (0 : Fin 1) k)]
  exact V_v48_apply m c k
theorem read9 (c : Dev nD) (t : Fin cfg0.N) (k : Fin 256) (j : Fin 128) :
    (iblk m c 9 t : S256x128.Idx → EReal) (ix2 k j) = a6 m c (ix2 k j) := by
  unfold iblk
  rw [View.read_apply, emb9 t (ix2 k j)]
  exact congrFun (V_main_arg6 m c) _
theorem read10 (c : Dev nD) (t : Fin cfg0.N) (j : Fin 128) :
    (iblk m c 10 t : S1x128.Idx → EReal) (ix2 (0 : Fin 1) j) = a7 m c (ix1 j) := by
  unfold iblk
  rw [View.read_apply, emb10 t (ix2 (0 : Fin 1) j)]
  exact V_v49_apply m c j
theorem read11 (c : Dev nD) (t : Fin cfg0.N) (i : Fin 128) (k : Fin 256) :
    (iblk m c 11 t : S128x256.Idx → EReal) (ix2 i k) = a8 m c (ix2 (band0 i) k) := by
  unfold iblk
  rw [View.read_apply, emb11 t (ix2 i k)]
  exact V_v45_apply m c i k
theorem read12 (c : Dev nD) (t : Fin cfg0.N) (i : Fin 128) (k : Fin 256) :
    (iblk m c 12 t : S128x256.Idx → EReal) (ix2 i k) = a8 m c (ix2 (band1 i) k) := by
  unfold iblk
  rw [View.read_apply, emb12 t (ix2 i k)]
  exact V_v46_apply m c i k
theorem read13 (c : Dev nD) (t : Fin cfg0.N) (i : Fin 64) (k : Fin 256) :
    (iblk m c 13 t : S64x256.Idx → EReal) (ix2 i k) = a8 m c (ix2 (band2 i) k) := by
  unfold iblk
  rw [View.read_apply, emb13 t (ix2 i k)]
  exact V_v47_apply m c i k
theorem read14 (c : Dev nD) (t : Fin cfg0.N) (k : Fin 256) :
    (iblk m c 14 t : S1x256.Idx → EReal) (ix2 (0 : Fin 1) k) = a9 m c (ix1 k) := by
  unfold iblk
  rw [View.read_apply, emb14 t (ix2 (0 : Fin 1) k)]
  exact V_v50_apply m c k
theorem read15 (c : Dev nD) (t : Fin cfg0.N) (k : Fin 256) :
    (iblk m c 15 t : S256x1.Idx → EReal) (ix2 k (0 : Fin 1)) = a10 m c (ix2 k (0 : Fin 1)) := by
  unfold iblk
  rw [View.read_apply, emb15 t (ix2 k (0 : Fin 1))]
  exact congrFun (V_main_arg10 m c) _

/-! ## The message array (output window 16) -/

/-- The reference's message array of the launch arguments. -/
abbrev G16 (c : Dev nD) : (⟨Cert.ReferenceIdeal.S524288x128, .f32⟩ : BufTy).Contents (Elt Ideal) :=
  Cert.ReferenceIdeal.Read.val_main_v37 (F := Ideal) (a0 m c) (a2 m c) (a3 m c) (a4 m c) (a5 m c) (a6 m c) (a7 m c) (a11 m c) (a12 m c) (a13 m c) (a14 m c)

/-- WHAT POINT t WRITES BACK to the message array is block t of the reference's message array: row p of the block is
    the message of edge 2048·t + p on both sides. -/
theorem flushed16_eq (c : Dev nD) (t : Fin cfg0.N) :
    (dats m 0 c).flushed 16 t = ((cfg0.win 16).blk t).view.read (Elt Ideal) (G16 m c) := by
  show (cfg0.win 16).cut (grid0.coords t) ((dats m 0 c).after 16 t) = _
  rw [after0_16]
  unfold out0_16
  rw [View.canon_unit_zero hz]
  simp only [View.ld_unit_zero (S := S2048x128) hz, View.ld_unit_zero (S := S2048x64) hz, View.ld_unit_zero (S := S128x256) hz,
    View.ld_unit_zero (S := S64x256) hz, View.ld_unit_zero (S := S1x256) hz, View.ld_unit_zero (S := S256x128) hz,
    View.ld_unit_zero (S := S1x128) hz]
  funext y
  obtain ⟨p, q, rfl⟩ : ∃ (p : Fin 2048) (q : Fin 128), y = ix2 p q := ⟨y 0, y 1, eq_ix2 y⟩
  show k0_pay14 (F := Ideal) (k0_pay2 (iblk m c 0 t)) (k0_pay3 (iblk m c 1 t)) (k0_pay4 (iblk m c 2 t)) (k0_pay5 (iblk m c 5 t))
      (k0_pay6 (iblk m c 6 t)) (k0_pay7 (iblk m c 7 t)) (k0_pay8 (iblk m c 8 t)) (k0_pay9 (iblk m c 9 t)) (k0_pay10 (iblk m c 10 t)) (ix2 p q)
    = G16 m c (((cfg0.win 16).blk t).view.emb (ix2 p q))
  rw [emb16 t p q]
  refine (Cert.KernelIdeal.Pay.pay_m_apply (iblk m c 0 t) (iblk m c 1 t) (iblk m c 2 t) (iblk m c 5 t) (iblk m c 6 t) (iblk m c 7 t)
    (iblk m c 8 t) (iblk m c 9 t) (iblk m c 10 t) p q).trans ?_
  refine Eq.trans ?_ (Cert.ReferenceIdeal.RefValue.ref_m_apply (a0 m c) (a2 m c) (a3 m c) (a4 m c) (a5 m c) (a6 m c) (a7 m c) (a11 m c) (a12 m c) (a13 m c) (a14 m c) (erow t p) q).symm
  simp only [read0, read1, read2, read5, read6, read7, read8, read9, read10]

theorem mem_blk16 (t : Fin cfg0.N) (i : S524288x128.Idx) :
    i ∈ ((cfg0.win 16).blk t).view.set ↔ ∀ a : Fin 2, win0_16.index t a * S2048x128.size a ≤ (i a).val
      ∧ (i a).val < win0_16.index t a * S2048x128.size a + S2048x128.size a := by
  show i ∈ ((View.whole main_v51_0).slice (win0_16.rect t)).set ↔ _
  rw [View.set_slice_whole, Rect.mem_set_unit]
  exact Iff.rfl

/-- Every row of the message array is in some point's block: row r in point r / 2048's. -/
theorem cover16 (i : S524288x128.Idx) :
    ∃ t : Fin cfg0.N, (cfg0.win 16).flush t = true ∧ i ∈ ((cfg0.win 16).blk t).view.set := by
  have hi0 : (i 0).val < 524288 := (i 0).isLt
  have hi1 : (i 1).val < 128 := (i 1).isLt
  have hN : cfg0.N = 256 := N_0
  have ht : (i 0).val / 2048 < cfg0.N := by rw [hN]; omega
  refine ⟨⟨(i 0).val / 2048, ht⟩, flush0_16 _, ?_⟩
  rw [mem_blk16]
  have hi := (idx_rows ⟨(i 0).val / 2048, ht⟩).2.2.2.2.2.1
  intro a
  match a with
  | ⟨0, _⟩ =>
    show win0_16.index ⟨(i 0).val / 2048, ht⟩ (0 : Fin 2) * 2048 ≤ (i 0).val
      ∧ (i 0).val < win0_16.index ⟨(i 0).val / 2048, ht⟩ (0 : Fin 2) * 2048 + 2048
    rw [hi.1]; show (i 0).val / 2048 * 2048 ≤ (i 0).val ∧ (i 0).val < (i 0).val / 2048 * 2048 + 2048; omega
  | ⟨1, _⟩ =>
    show win0_16.index ⟨(i 0).val / 2048, ht⟩ (1 : Fin 2) * 128 ≤ (i 1).val
      ∧ (i 1).val < win0_16.index ⟨(i 0).val / 2048, ht⟩ (1 : Fin 2) * 128 + 128
    rw [hi.2]; omega

/-- THE MESSAGE ARRAY after the run is the reference's message array. -/
theorem final16 (c : Dev nD) : (dats m 0 c).arrAt 16 cfg0.N = G16 m c :=
  (dats m 0 c).arrAt_eq_of_cover 16 (G16 m c) (fun t _ => flushed16_eq m c t) cover16

/-! ## The weighted-direction array (output window 17) -/

/-- The reference's weighted-direction array of the launch arguments. -/
abbrev G17 (c : Dev nD) : (⟨Cert.ReferenceIdeal.S524288x3, .f32⟩ : BufTy).Contents (Elt Ideal) :=
  Cert.ReferenceIdeal.Read.val_main_v68 (F := Ideal) (a0 m c) (a1 m c) (a2 m c) (a3 m c) (a8 m c) (a9 m c) (a10 m c) (a11 m c) (a12 m c) (a13 m c) (a14 m c)

/-- WHAT POINT t WRITES BACK to the weighted-direction array is block t of the reference's. -/
theorem flushed17_eq (c : Dev nD) (t : Fin cfg0.N) :
    (dats m 0 c).flushed 17 t = ((cfg0.win 17).blk t).view.read (Elt Ideal) (G17 m c) := by
  show (cfg0.win 17).cut (grid0.coords t) ((dats m 0 c).after 17 t) = _
  rw [after0_17]
  unfold out0_17
  rw [View.canon_unit_zero hz]
  simp only [View.ld_unit_zero (S := S2048x128) hz, View.ld_unit_zero (S := S2048x64) hz, View.ld_unit_zero (S := S128x256) hz,
    View.ld_unit_zero (S := S64x256) hz, View.ld_unit_zero (S := S1x256) hz, View.ld_unit_zero (S := S256x1) hz,
    View.ld_unit_zero (S := S2048x3) hz]
  funext y
  obtain ⟨p, d, rfl⟩ : ∃ (p : Fin 2048) (d : Fin 3), y = ix2 p d := ⟨y 0, y 1, eq_ix2 y⟩
  show k0_pay1 (F := Ideal) (k0_pay15 (k0_pay2 (iblk m c 0 t)) (k0_pay3 (iblk m c 1 t)) (k0_pay4 (iblk m c 2 t)) (k0_pay11 (iblk m c 11 t))
      (k0_pay12 (iblk m c 12 t)) (k0_pay13 (iblk m c 13 t)) (iblk m c 14 t) (iblk m c 15 t))
      (k0_pay16 (iblk m c 3 t) (iblk m c 4 t)) (k0_pay17 (iblk m c 3 t) (iblk m c 4 t)) (ix2 p d)
    = G17 m c (((cfg0.win 17).blk t).view.emb (ix2 p d))
  rw [emb17 t p d]
  refine (Cert.KernelIdeal.Pay.pay_w_apply (iblk m c 0 t) (iblk m c 1 t) (iblk m c 2 t) (iblk m c 3 t) (iblk m c 4 t) (iblk m c 11 t)
    (iblk m c 12 t) (iblk m c 13 t) (iblk m c 14 t) (iblk m c 15 t) p d).trans ?_
  refine Eq.trans ?_ (Cert.ReferenceIdeal.RefValue.ref_w_apply (a0 m c) (a1 m c) (a2 m c) (a3 m c) (a8 m c) (a9 m c) (a10 m c) (a11 m c) (a12 m c) (a13 m c) (a14 m c) (erow t p) d).symm
  simp only [read0, read1, read2, read3, read4, read11, read12, read13, read14, read15]

theorem mem_blk17 (t : Fin cfg0.N) (i : S524288x3.Idx) :
    i ∈ ((cfg0.win 17).blk t).view.set ↔ ∀ a : Fin 2, win0_17.index t a * S2048x3.size a ≤ (i a).val
      ∧ (i a).val < win0_17.index t a * S2048x3.size a + S2048x3.size a := by
  show i ∈ ((View.whole main_v51_1).slice (win0_17.rect t)).set ↔ _
  rw [View.set_slice_whole, Rect.mem_set_unit]
  exact Iff.rfl

/-- Every row of the weighted-direction array is in some point's block. -/
theorem cover17 (i : S524288x3.Idx) :
    ∃ t : Fin cfg0.N, (cfg0.win 17).flush t = true ∧ i ∈ ((cfg0.win 17).blk t).view.set := by
  have hi0 : (i 0).val < 524288 := (i 0).isLt
  have hi1 : (i 1).val < 3 := (i 1).isLt
  have hN : cfg0.N = 256 := N_0
  have ht : (i 0).val / 2048 < cfg0.N := by rw [hN]; omega
  refine ⟨⟨(i 0).val / 2048, ht⟩, flush0_17 _, ?_⟩
  rw [mem_blk17]
  have hi := (idx_rows ⟨(i 0).val / 2048, ht⟩).2.2.2.2.2.2
  intro a
  match a with
  | ⟨0, _⟩ =>
    show win0_17.index ⟨(i 0).val / 2048, ht⟩ (0 : Fin 2) * 2048 ≤ (i 0).val
      ∧ (i 0).val < win0_17.index ⟨(i 0).val / 2048, ht⟩ (0 : Fin 2) * 2048 + 2048
    rw [hi.1]; show (i 0).val / 2048 * 2048 ≤ (i 0).val ∧ (i 0).val < (i 0).val / 2048 * 2048 + 2048; omega
  | ⟨1, _⟩ =>
    show win0_17.index ⟨(i 0).val / 2048, ht⟩ (1 : Fin 2) * 3 ≤ (i 1).val
      ∧ (i 1).val < win0_17.index ⟨(i 0).val / 2048, ht⟩ (1 : Fin 2) * 3 + 3
    rw [hi.2]; omega

/-- THE WEIGHTED-DIRECTION ARRAY after the run is the reference's. -/
theorem final17 (c : Dev nD) : (dats m 0 c).arrAt 17 cfg0.N = G17 m c :=
  (dats m 0 c).arrAt_eq_of_cover 17 (G17 m c) (fun t _ => flushed17_eq m c t) cover17

end Cert.KernelIdeal.Blocks

end
-- ==== Proof.Tail.lean ====
/-
  The host lines after the region, read: each result of @main as the reference's own stage of the launch arguments.

  After the region @main scatter-adds the message array into a zero [32768, 128] table at the destination indices and adds
  the node table, and scatter-adds the weighted-direction array into a zero [32768, 3] table at the same indices and adds
  the coordinate table. The reference does the same to ITS message and weighted-direction arrays; the kernel region's two
  output arrays end holding exactly those (`Blocks.final16`, `Blocks.final17`), the index vector is the same slice of the
  same argument, so both results are the reference's stage functions of the arguments, and the scatter is never opened.
-/
import proofs.«181356_j2319282340045_1_alg».proof.Proof.Gen.KernelIdeal.Frame
import proofs.«181356_j2319282340045_1_alg».proof.Proof.HostPre
import proofs.«181356_j2319282340045_1_alg».proof.Proof.Blocks
import Idealize.ShloMosaic.Lib.StableHlo.Run

set_option maxRecDepth 16384

noncomputable section

namespace Cert.KernelIdeal.Tail

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.HostPre Cert.KernelIdeal.Blocks

variable (m : (ℓ : Loc nD τ sig) → Buf (Elt Ideal) ℓ)

/-- The destination indices as the region finds them: row 1 of the edge-index argument, flattened. -/
theorem V_dst (c : Dev nD) : V m c main_v3 = Cert.ReferenceIdeal.Read.val_main_v3 (F := Ideal) (a2 m c) := by
  dsimp only [V, V0]
  simp only [hostOps0, hostOps0_1, hostOps0_2, List.flatten_cons, List.flatten_nil, List.append_nil, List.cons_append, List.nil_append]
  after_results_simp <;> rfl

/-- The arrays the lines after the region read: the node table and the indices are no array of the pipeline and are as the
    region found them; the message array is the pipeline's output 16. -/
theorem tail_arg0 (c : Dev nD) :
    Pipeline.withArrays spec0 c (V0 m c) (fun w => (dats m 0 c).arrAt w cfg0.N) (Proc.devRef .tc main_arg0) = a0 m c := by
  rw [Pipeline.withArrays_of_ne _ c (V0 m c) _ main_arg0 (by exact (by decide : ∀ w, Pipeline.arrRef spec0 w ≠ main_arg0))]
  exact V_main_arg0 m c
theorem tail_arg1 (c : Dev nD) :
    Pipeline.withArrays spec0 c (V0 m c) (fun w => (dats m 0 c).arrAt w cfg0.N) (Proc.devRef .tc main_arg1) = a1 m c := by
  rw [Pipeline.withArrays_of_ne _ c (V0 m c) _ main_arg1 (by exact (by decide : ∀ w, Pipeline.arrRef spec0 w ≠ main_arg1))]
  exact V_main_arg1 m c
theorem tail_dst (c : Dev nD) :
    Pipeline.withArrays spec0 c (V0 m c) (fun w => (dats m 0 c).arrAt w cfg0.N) (Proc.devRef .tc main_v3)
      = Cert.ReferenceIdeal.Read.val_main_v3 (F := Ideal) (a2 m c) := by
  rw [Pipeline.withArrays_of_ne _ c (V0 m c) _ main_v3 (by exact (by decide : ∀ w, Pipeline.arrRef spec0 w ≠ main_v3))]
  exact V_dst m c
theorem tail_msg (c : Dev nD) :
    Pipeline.withArrays spec0 c (V0 m c) (fun w => (dats m 0 c).arrAt w cfg0.N) (Proc.devRef .tc main_v51_0) = G16 m c :=
  (Pipeline.withArrays_arr spec0 launch0.win.arr_inj c _ _ 16).trans (final16 m c)
theorem tail_wdir (c : Dev nD) :
    Pipeline.withArrays spec0 c (V0 m c) (fun w => (dats m 0 c).arrAt w cfg0.N) (Proc.devRef .tc main_v51_1) = G17 m c :=
  (Pipeline.withArrays_arr spec0 launch0.win.arr_inj c _ _ 17).trans (final17 m c)

/-- THE FIRST RESULT: the node table plus the messages scattered onto their destinations, as the reference states it. -/
theorem out0_eq (c : Dev nD) :
    Pipeline.afterTail₀ cfgs (dats m) 0 (V0 m) [hostOps1] c main_v58
      = Cert.ReferenceIdeal.Read.val_main_v72 (F := Ideal) (a0 m c) (a2 m c) (a3 m c) (a4 m c) (a5 m c) (a6 m c) (a7 m c) (a11 m c) (a12 m c) (a13 m c) (a14 m c) := by
  unfold Pipeline.afterTail₀
  show StableHlo.after hostOps1 _ (Proc.devRef .tc main_v58) = _
  after_results
  rw [tail_arg0, tail_dst, tail_msg]
  rfl

/-- THE SECOND RESULT: the coordinate table plus the weighted directions scattered onto their destinations. -/
theorem out1_eq (c : Dev nD) :
    Pipeline.afterTail₀ cfgs (dats m) 0 (V0 m) [hostOps1] c main_v59
      = Cert.ReferenceIdeal.Read.val_main_v73 (F := Ideal) (a0 m c) (a1 m c) (a2 m c) (a3 m c) (a8 m c) (a9 m c) (a10 m c) (a11 m c) (a12 m c) (a13 m c) (a14 m c) := by
  unfold Pipeline.afterTail₀
  show StableHlo.after hostOps1 _ (Proc.devRef .tc main_v59) = _
  after_results
  rw [tail_arg1, tail_dst, tail_wdir]
  rfl

end Cert.KernelIdeal.Tail

end
-- ==== Proof.lean ====
/-
  The certificate of the message-passing layer: the kernel program against its jnp reference, over the extended reals.

  Both programs compute, for every edge e with source s(e) and destination d(e), a message
  m(e) = silu([h[s(e)], h[d(e)], attr(e)] · W1 + b1) · W2 + b2 and a weighted unit direction
  w(e) · (x[s(e)] − x[d(e)]) / max(‖x[s(e)] − x[d(e)]‖, ε), with w(e) = silu([…] · V1 + c1) · v2, and return the node table
  plus the messages summed onto their destinations and the coordinate table plus the weighted directions summed onto their
  destinations. The edge attributes, the four gathers and the two scatter-adds are the same host operations of the same
  arguments in both programs and are never opened. What differs is the middle: the reference joins the three rows and
  multiplies once with the 320 × 256 matrix, on the whole edge list; the kernel multiplies each row with its own band of
  the matrix and adds the three products, block of 2048 edges by block. A sum over 320 indices is the sum of the sums over
  its three bands (`Cert.Egnn.sum_bands`; addition on the extended reals is commutative and associative, no finiteness
  is used), x · σ(x) is spelled the same way on both sides, and the 256 blocks tile the edge list, so the kernel region's two
  output arrays are the reference's (`Blocks.final16`, `Blocks.final17`) and the two results follow (`Tail.out0_eq`,
  `Tail.out1_eq`). The kernel's frames are the generated ones; the reference's frame is its generated run with the results
  dropped; the idealization rewrote nothing.
-/
import proofs.«181356_j2319282340045_1_alg».proof.Defs
import proofs.«181356_j2319282340045_1_alg».proof.Proof.Gen.Kernel
import proofs.«181356_j2319282340045_1_alg».proof.Proof.Gen.Kernel.Skeleton
import proofs.«181356_j2319282340045_1_alg».proof.Proof.Gen.Kernel.Launch
import proofs.«181356_j2319282340045_1_alg».proof.Proof.Gen.Kernel.Points
import proofs.«181356_j2319282340045_1_alg».proof.Proof.Gen.Kernel.Frame
import proofs.«181356_j2319282340045_1_alg».proof.Proof.Gen.KernelIdeal
import proofs.«181356_j2319282340045_1_alg».proof.Proof.Gen.KernelIdeal.Skeleton
import proofs.«181356_j2319282340045_1_alg».proof.Proof.Gen.KernelIdeal.Launch
import proofs.«181356_j2319282340045_1_alg».proof.Proof.Gen.KernelIdeal.Points
import proofs.«181356_j2319282340045_1_alg».proof.Proof.Gen.KernelIdeal.Frame
import proofs.«181356_j2319282340045_1_alg».proof.Proof.Gen.ReferenceIdeal
import proofs.«181356_j2319282340045_1_alg».proof.Proof.Gen.Pre_finite_inputs
import proofs.«181356_j2319282340045_1_alg».proof.Proof.Gen.ReferenceIdeal.Run
import proofs.«181356_j2319282340045_1_alg».proof.Proof.Gen.ReferenceIdeal.Read
import proofs.«181356_j2319282340045_1_alg».proof.Proof.HostPre
import proofs.«181356_j2319282340045_1_alg».proof.Proof.Tail
import Idealize.ShloMosaic.Adequacy
import Idealize.ShloMosaic.Init

set_option maxRecDepth 16384

noncomputable section

namespace Cert.Proof

open Idealize.ShloMosaic Idealize.SL.Sem
open Cert.KernelIdeal.HostPre

/-- A launch argument no window stages ends as the lines after the region leave it, which is as launched. -/
theorem kept_rest (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal))
    (h : Pipeline.FramePost Cert.KernelIdeal.cfgs (Cert.KernelIdeal.Gen.dats m) 0
      (Pipeline.afterTail₀ Cert.KernelIdeal.cfgs (Cert.KernelIdeal.Gen.dats m) 0 (Cert.KernelIdeal.Gen.V0 m) [Cert.KernelIdeal.Gen.hostOps1]) r)
    (c : Dev Cert.KernelIdeal.nD) (b : Ref Cert.KernelIdeal.sig .tc) (hs : b.isScoped = false)
    (hb : ∀ w, Pipeline.arrRef Cert.KernelIdeal.spec0 w ≠ b)
    (hV : Pipeline.afterTail₀ Cert.KernelIdeal.cfgs (Cert.KernelIdeal.Gen.dats m) 0 (Cert.KernelIdeal.Gen.V0 m) [Cert.KernelIdeal.Gen.hostOps1] c b
      = m ((c.tc : Thread Cert.KernelIdeal.nD Cert.KernelIdeal.τ).loc b)) :
    r.2.mem ((c.tc : Thread Cert.KernelIdeal.nD Cert.KernelIdeal.τ).loc b) = m ((c.tc : Thread Cert.KernelIdeal.nD Cert.KernelIdeal.τ).loc b) :=
  ((h c).2 b (Pipeline.mem_restRefs_of b hs hb)).trans hV

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the reference's two stage functions of the (agreeing) launch arguments. -/
theorem algebraic : Cert.algebraic_KernelIdeal_ReferenceIdeal := by
  intro m ρ m' ρ' _ hagree
  refine ⟨fun c => Cert.ReferenceIdeal.Read.val_main_v72 (F := Ideal) (a0 m c) (a2 m c) (a3 m c) (a4 m c) (a5 m c) (a6 m c) (a7 m c) (a11 m c) (a12 m c) (a13 m c) (a14 m c),
    fun c => Cert.ReferenceIdeal.Read.val_main_v73 (F := Ideal) (a0 m c) (a1 m c) (a2 m c) (a3 m c) (a8 m c) (a9 m c) (a10 m c) (a11 m c) (a12 m c) (a13 m c) (a14 m c), ?_, ?_⟩
  · refine (θ_run Cert.KernelIdeal.defs _ _).mono (fun r h c => ?_) (Cert.KernelIdeal.Gen.run_main m ρ)
    exact ⟨((h c).2 Cert.KernelIdeal.main_v58 (Pipeline.mem_restRefs_of Cert.KernelIdeal.main_v58 (by decide) (by decide))).trans
        (Cert.KernelIdeal.Tail.out0_eq m c),
      ((h c).2 Cert.KernelIdeal.main_v59 (Pipeline.mem_restRefs_of Cert.KernelIdeal.main_v59 (by decide) (by decide))).trans
        (Cert.KernelIdeal.Tail.out1_eq m c),
      kept_rest m r h c Cert.KernelIdeal.main_arg0 (by decide) (by decide) (Cert.KernelIdeal.Gen.W_main_arg0 m (Cert.KernelIdeal.Gen.dats m) c),
      kept_rest m r h c Cert.KernelIdeal.main_arg1 (by decide) (by decide) (Cert.KernelIdeal.Gen.W_main_arg1 m (Cert.KernelIdeal.Gen.dats m) c),
      kept_rest m r h c Cert.KernelIdeal.main_arg2 (by decide) (by decide) (Cert.KernelIdeal.Gen.W_main_arg2 m (Cert.KernelIdeal.Gen.dats m) c),
      kept_rest m r h c Cert.KernelIdeal.main_arg3 (by decide) (by decide) (Cert.KernelIdeal.Gen.W_main_arg3 m (Cert.KernelIdeal.Gen.dats m) c),
      kept_rest m r h c Cert.KernelIdeal.main_arg4 (by decide) (by decide) (Cert.KernelIdeal.Gen.W_main_arg4 m (Cert.KernelIdeal.Gen.dats m) c),
      kept_rest m r h c Cert.KernelIdeal.main_arg5 (by decide) (by decide) (Cert.KernelIdeal.Gen.W_main_arg5 m (Cert.KernelIdeal.Gen.dats m) c),
      ((h c).1 9).trans (((Cert.KernelIdeal.Gen.dats m 0 c).arrAt_in 9 rfl _).trans
        ((Cert.KernelIdeal.Gen.A_eq m c 9).trans (Cert.KernelIdeal.Gen.V_main_arg6 m c))),
      kept_rest m r h c Cert.KernelIdeal.main_arg7 (by decide) (by decide) (Cert.KernelIdeal.Gen.W_main_arg7 m (Cert.KernelIdeal.Gen.dats m) c),
      kept_rest m r h c Cert.KernelIdeal.main_arg8 (by decide) (by decide) (Cert.KernelIdeal.Gen.W_main_arg8 m (Cert.KernelIdeal.Gen.dats m) c),
      kept_rest m r h c Cert.KernelIdeal.main_arg9 (by decide) (by decide) (Cert.KernelIdeal.Gen.W_main_arg9 m (Cert.KernelIdeal.Gen.dats m) c),
      ((h c).1 15).trans (((Cert.KernelIdeal.Gen.dats m 0 c).arrAt_in 15 rfl _).trans
        ((Cert.KernelIdeal.Gen.A_eq m c 15).trans (Cert.KernelIdeal.Gen.V_main_arg10 m c))),
      kept_rest m r h c Cert.KernelIdeal.main_arg11 (by decide) (by decide) (Cert.KernelIdeal.Gen.W_main_arg11 m (Cert.KernelIdeal.Gen.dats m) c),
      kept_rest m r h c Cert.KernelIdeal.main_arg12 (by decide) (by decide) (Cert.KernelIdeal.Gen.W_main_arg12 m (Cert.KernelIdeal.Gen.dats m) c),
      kept_rest m r h c Cert.KernelIdeal.main_arg13 (by decide) (by decide) (Cert.KernelIdeal.Gen.W_main_arg13 m (Cert.KernelIdeal.Gen.dats m) c),
      kept_rest m r h c Cert.KernelIdeal.main_arg14 (by decide) (by decide) (Cert.KernelIdeal.Gen.W_main_arg14 m (Cert.KernelIdeal.Gen.dats m) c)⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10, e11, e12, e13, e14⟩ := hagree c
    refine ⟨h0.trans ?_, h1.trans ?_, hargs⟩
    · rw [Cert.ReferenceIdeal.Read.val_main_v72_eq, e0, e2, e3, e4, e5, e6, e7, e11, e12, e13, e14]
    · rw [Cert.ReferenceIdeal.Read.val_main_v73_eq, e0, e1, e2, e3, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
